-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256x256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x256 .f32) (main_arg1 : FVec F S1024x256 .f32) (main_arg2 : FVec F S1024x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S1024x256 : Shape := ⟨2, ![1024, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S1x1 : Shape := ⟨2, ![1, 1]⟩
abbrev S256x1 : Shape := ⟨2, ![256, 1]⟩
abbrev S1 : Shape := ⟨1, ![1]⟩

abbrev nBuf : Space → Nat
  | .hbm => 47
  | .vmem => 20
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1024x256, .f32⟩
  | .hbm, ⟨26, _⟩ => ⟨S_, .f32⟩
  | .hbm, ⟨27, _⟩ => ⟨S256, .f32⟩
  | .hbm, ⟨28, _⟩ => ⟨S1x256, .f32⟩
  | .hbm, ⟨29, _⟩ => ⟨S_, .f32⟩
  | .hbm, ⟨30, _⟩ => ⟨S1x256, .f32⟩
  | .hbm, ⟨31, _⟩ => ⟨S1x256, .f32⟩
  | .hbm, ⟨32, _⟩ => ⟨S_, .f32⟩
  | .hbm, ⟨33, _⟩ => ⟨S256, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S1024x256, .f32⟩
  | .hbm, ⟨39, _⟩ => ⟨S_, .f32⟩
  | .hbm, ⟨40, _⟩ => ⟨S256, .f32⟩
  | .hbm, ⟨41, _⟩ => ⟨S1x256, .f32⟩
  | .hbm, ⟨42, _⟩ => ⟨S_, .f32⟩
  | .hbm, ⟨43, _⟩ => ⟨S1x256, .f32⟩
  | .hbm, ⟨44, _⟩ => ⟨S1x256, .f32⟩
  | .hbm, ⟨45, _⟩ => ⟨S1x1, .f32⟩
  | .hbm, ⟨46, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x1, .f32⟩
  | .local _ .vmem, ⟨19, _⟩ => ⟨S1x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v100 : BitVec 1 := Scalar.cmpi .eq arg0 c3_i32
  let v101 : BitVec 32 := Scalar.extui v100
  let c0_i32_49 : BitVec 32 := 0#32
  let v102 : BitVec 1 := Scalar.cmpi .ne v101 c0_i32_49
  v102

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  transposes_S256x256_S256x256_1_0 : S256x256.Transposes [1, 0] S256x256
  shapeCasts_S256_S1x256 : S256.ShapeCasts S1x256
  reducesTo_S1024x256_S256_d0 : S1024x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .f32 = 32 ∨ (Rect.block (s := S1024x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S1024x256.size a
  hwx0_1 : ∀ i : grid0.Coords, EltTy.bits .f32 = 32 ∨ (Rect.block (s := S1024x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x256.size a
  hwx0_2 : ∀ i : grid0.Coords, EltTy.bits .f32 = 32 ∨ (Rect.block (s := S1024x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v26) S1x1.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S1024x256 : Shape := ⟨2, ![1024, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S1024x256, .f32⟩
  | .hbm, ⟨13, _⟩ => ⟨S1x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S256x256, .f32⟩
  | .hbm, ⟨20, _⟩ => ⟨S1024x256, .f32⟩
  | .hbm, ⟨21, _⟩ => ⟨S1x256, .f32⟩
  | .hbm, ⟨22, _⟩ => ⟨S1024x256, .f32⟩
  | .hbm, ⟨23, _⟩ => ⟨S1024x256, .f32⟩
  | .hbm, ⟨24, _⟩ => ⟨S256x256, .f32⟩
  | .hbm, ⟨25, _⟩ => ⟨S1024x256, .f32⟩
  | .hbm, ⟨26, _⟩ => ⟨S1x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S256x256, .f32⟩
  | .hbm, ⟨33, _⟩ => ⟨S1024x256, .f32⟩
  | .hbm, ⟨34, _⟩ => ⟨S1x256, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S1024x256, .f32⟩
  | .hbm, ⟨51, _⟩ => ⟨S1024x256, .f32⟩
  | .hbm, ⟨52, _⟩ => ⟨S1024x1x256, .f32⟩
  | .hbm, ⟨53, _⟩ => ⟨S1x1024x256, .f32⟩
  | .hbm, ⟨54, _⟩ => ⟨S1024x1024x256, .f32⟩
  | .hbm, ⟨55, _⟩ => ⟨S1024x1024x256, .f32⟩
  | .hbm, ⟨56, _⟩ => ⟨S1024x1024x256, .f32⟩
  | .hbm, ⟨57, _⟩ => ⟨S1024x1024x256, .f32⟩
  | .hbm, ⟨58, _⟩ => ⟨S1x1024x256, .f32⟩
  | .hbm, ⟨59, _⟩ => ⟨S1024x1024x256, .f32⟩
  | .hbm, ⟨60, _⟩ => ⟨S1024x1024x256, .f32⟩
  | .hbm, ⟨61, _⟩ => ⟨S1024x1024x256, .f32⟩
  | .hbm, ⟨62, _⟩ => ⟨S1024x1024x256, .f32⟩
  | .hbm, ⟨63, _⟩ => ⟨S1024x1024x256, .f32⟩
  | .hbm, ⟨64, _⟩ => ⟨S_, .f32⟩
  | .hbm, ⟨65, _⟩ => ⟨S1024x256, .f32⟩
  | .hbm, ⟨66, _⟩ => ⟨S_, .f32⟩
  | .hbm, ⟨67, _⟩ => ⟨S1024x256, .f32⟩
  | .hbm, ⟨68, _⟩ => ⟨S1024x256, .f32⟩
  | .hbm, ⟨69, _⟩ => ⟨S1024x256, .f32⟩
  | .hbm, ⟨70, _⟩ => ⟨S1024x256, .f32⟩
  | .hbm, ⟨71, _⟩ => ⟨S_, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_1 : Ref sig .tc := ⟨.hbm, 64, rfl⟩
abbrev main_v47 : Ref sig .tc := ⟨.hbm, 65, rfl⟩
abbrev main_cst_2 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_call2_cst : Ref sig .tc := ⟨.hbm, 76, rfl⟩
abbrev main_call2_v0 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1x1024x256_S1024x1024x256_0_1_2 : S1x1024x256.BroadcastsInDim S1024x1024x256 (![0, 1, 2] : Fin 3 → Fin S1024x1024x256.rank)
  bcast_S1024x1x256_S1024x1024x256_0_1_2 : S1024x1x256.BroadcastsInDim S1024x1024x256 (![0, 1, 2] : Fin 3 → Fin S1024x1024x256.rank)
  reducesTo_S1024x1024x256_S1024x256_d1 : S1024x1024x256.ReducesTo [1] S1024x256
  h_S_ : 0 < S_.numel
  reducesTo_S1024x256_S1024_d1 : S1024x256.ReducesTo [1] S1024
  bcast_S_S1024 : S_.BroadcastsInDim S1024 (![] : Fin 0 → Fin S1024.rank)
  reducesTo_S1024_S_d0 : S1024.ReducesTo [0] S_
  dot_S1024x256_S256x256_S1024x256_1_0_0_1_n_n_wf : DotDims.WF S1024x256 S256x256 S1024x256 [1] [0] [0] [1] [] []

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

class Facts : Prop extends Facts₀ where

variable [Facts]
-- ==== Proof.Spec.lean ====
/-
  The mathematics of the two programs, over the extended reals, with no program imported.

  Notation.  x, y, z are the sample matrices [1024, 256]; each head is a two-layer perceptron
  x ↦ relu (x · w1ᵀ + b1) · w2ᵀ + b2 (weights stored [out, in]).  With μ the first head's output and
  g = 1 / (2 · exp (tanh ℓ)) from the second head's output ℓ, both programs compute the mean over the
  samples i of   max (∑_d P i d − ∑_d N i d) 0   where   P i d = −((μ − y_id)² + (μ − z_id)²) · g   and
  N i d = −(mean_j [(y_jd − μ)² + (z_jd − μ)²]) · g  (μ, g taken at (i, d)).
  The reference forms the mean over j of the squared differences directly (`negR`); the kernel expands the
  square and uses the column moments E[y], E[y²], E[z], E[z²] (`negK`), tiles the rows in four blocks of 256,
  accumulates the block sums in order, and multiplies by the literal 1/1024 where the reference divides by 1024.
  Float literals stay as the words the programs print (`c0` … `cInvN`).
-/
import Idealize.ShloMosaic.PureOps.Ideal
import Idealize.ShloMosaic.PureOps.Ideal.Laws
import Idealize.ShloMosaic.Lib.ValueIdx

noncomputable section

open scoped BigOperators

namespace Cert.Club

open Idealize.ShloMosaic Idealize.ShloMosaic.ValueIdx

/-- A sample matrix [1024, 256], a square matrix [256, 256], a vector [256], a row [1, 256], as functions of the index. -/
abbrev Mat : Type := (⟨2, ![1024, 256]⟩ : Shape).Idx → EReal
abbrev Sq : Type := (⟨2, ![256, 256]⟩ : Shape).Idx → EReal
abbrev Vc : Type := (⟨1, ![256]⟩ : Shape).Idx → EReal
abbrev Rw : Type := (⟨2, ![1, 256]⟩ : Shape).Idx → EReal

/-- The literals: 0, 1, 2, 1024 and 1/1024 as the f32 words the programs print. -/
def c0 : EReal := Ideal.ofBits .f32 0x00000000#32
def c1 : EReal := Ideal.ofBits .f32 0x3F800000#32
def c2 : EReal := Ideal.ofBits .f32 0x40000000#32
def cN : EReal := Ideal.ofBits .f32 0x44800000#32
def cInvN : EReal := Ideal.ofBits .f32 0x3A800000#32

/-! ## Over the whole arrays -/

/-- The hidden layer relu (x · wᵀ + b) at (i, k); `w` is stored [out, in]. -/
def hid (x : Mat) (w : Sq) (b : Vc) (i : Fin 1024) (k : Fin 256) : EReal :=
  max ((∑ q : Fin 256, x (ix2 i q) * w (ix2 k q)) + b (ix1 k)) c0

/-- A head's output relu (x · w1ᵀ + b1) · w2ᵀ + b2 at (i, d). -/
def head (x : Mat) (w1 : Sq) (b1 : Vc) (w2 : Sq) (b2 : Vc) (i : Fin 1024) (d : Fin 256) : EReal :=
  (∑ k : Fin 256, hid x w1 b1 i k * w2 (ix2 d k)) + b2 (ix1 d)

/-- 1 / (2 · exp (tanh ℓ)). -/
def inv2var (l : EReal) : EReal := Ideal.div c1 (c2 * Ideal.exp (Ideal.tanh l))

/-- The kernel's positive term at one element: (0 − ((μ − y)² + (μ − z)²)) · g. -/
def posK (mu y z g : EReal) : EReal := (c0 - ((mu - y) * (mu - y) + (mu - z) * (mu - z))) * g
/-- The reference's: (−((μ − y)² + (μ − z)²)) · g. -/
def posR (mu y z g : EReal) : EReal := (-((mu - y) * (mu - y) + (mu - z) * (mu - z))) * g

/-- The column mean (0 + ∑_j a_jd) / 1024 and the column mean of squares. -/
def colMean (a : Mat) (d : Fin 256) : EReal := Ideal.div (c0 + ∑ j : Fin 1024, a (ix2 j d)) cN
def colMeanSq (a : Mat) (d : Fin 256) : EReal := Ideal.div (c0 + ∑ j : Fin 1024, a (ix2 j d) * a (ix2 j d)) cN

/-- The kernel's negative term at one element, from the column moments:
    (0 − ((E[y²] − (2μ)·E[y] + μ²) + (E[z²] − (2μ)·E[z] + μ²))) · g. -/
def negK (mu ey ey2 ez ez2 g : EReal) : EReal :=
  (c0 - ((ey2 - (c2 * mu) * ey + mu * mu) + (ez2 - (c2 * mu) * ez + mu * mu))) * g

/-- The reference's: (−((0 + ∑_j ((y_jd − μ)² + (z_jd − μ)²)) / 1024)) · g. -/
def negR (y z : Mat) (d : Fin 256) (mu g : EReal) : EReal :=
  (-(Ideal.div (c0 + ∑ j : Fin 1024, ((y (ix2 j d) - mu) * (y (ix2 j d) - mu) + (z (ix2 j d) - mu) * (z (ix2 j d) - mu))) cN)) * g

/-- Row i of the kernel: max (∑_d P − ∑_d N) 0 (lane sums without an initial value). -/
def rowK (x y z : Mat) (w1m : Sq) (b1m : Vc) (w2m : Sq) (b2m : Vc) (w1l : Sq) (b1l : Vc) (w2l : Sq) (b2l : Vc)
    (i : Fin 1024) : EReal :=
  max ((∑ d : Fin 256, posK (head x w1m b1m w2m b2m i d) (y (ix2 i d)) (z (ix2 i d)) (inv2var (head x w1l b1l w2l b2l i d)))
      - ∑ d : Fin 256, negK (head x w1m b1m w2m b2m i d) (colMean y d) (colMeanSq y d) (colMean z d) (colMeanSq z d)
          (inv2var (head x w1l b1l w2l b2l i d))) c0

/-- Row i of the reference (host sums start from the literal 0). -/
def rowR (x y z : Mat) (w1m : Sq) (b1m : Vc) (w2m : Sq) (b2m : Vc) (w1l : Sq) (b1l : Vc) (w2l : Sq) (b2l : Vc)
    (i : Fin 1024) : EReal :=
  max ((c0 + ∑ d : Fin 256, posR (head x w1m b1m w2m b2m i d) (y (ix2 i d)) (z (ix2 i d)) (inv2var (head x w1l b1l w2l b2l i d)))
      - (c0 + ∑ d : Fin 256, negR y z d (head x w1m b1m w2m b2m i d) (inv2var (head x w1l b1l w2l b2l i d)))) c0

/-- Row r of tile t is row 256 t + r. -/
def tileRow (t : Fin 4) (r : Fin 256) : Fin 1024 := ⟨256 * t.val + r.val, by have := t.isLt; have := r.isLt; omega⟩

/-- The kernel's sum over the 256 rows of tile t. -/
def tileK (x y z : Mat) (w1m : Sq) (b1m : Vc) (w2m : Sq) (b2m : Vc) (w1l : Sq) (b1l : Vc) (w2l : Sq) (b2l : Vc)
    (t : Fin 4) : EReal :=
  ∑ r : Fin 256, rowK x y z w1m b1m w2m b2m w1l b1l w2l b2l (tileRow t r)

/-- The kernel's result: the four tile sums accumulated in order from 0, times the literal 1/1024. -/
def resK (x y z : Mat) (w1m : Sq) (b1m : Vc) (w2m : Sq) (b2m : Vc) (w1l : Sq) (b1l : Vc) (w2l : Sq) (b2l : Vc) : EReal :=
  ((((c0 + tileK x y z w1m b1m w2m b2m w1l b1l w2l b2l 0) + tileK x y z w1m b1m w2m b2m w1l b1l w2l b2l 1)
      + tileK x y z w1m b1m w2m b2m w1l b1l w2l b2l 2) + tileK x y z w1m b1m w2m b2m w1l b1l w2l b2l 3) * cInvN

/-- The reference's result: (0 + ∑_i row i) / 1024. -/
def resR (x y z : Mat) (w1m : Sq) (b1m : Vc) (w2m : Sq) (b2m : Vc) (w1l : Sq) (b1l : Vc) (w2l : Sq) (b2l : Vc) : EReal :=
  Ideal.div (c0 + ∑ i : Fin 1024, rowR x y z w1m b1m w2m b2m w1l b1l w2l b2l i) cN

/-! ## Over one tile's blocks, as the kernel body sees them

The body at a grid point is given a [256, 256] block of each of x, y, z, the four weight matrices TRANSPOSED
([in, out]), the four biases as rows [1, 256] and the four column moments as rows [1, 256]. -/

/-- relu (xb · wt + br) at (r, k): `wt` is [in, out]. -/
def hidB (xb wt : Sq) (br : Rw) (r k : Fin 256) : EReal :=
  max ((∑ q : Fin 256, xb (ix2 r q) * wt (ix2 q k)) + br (ix2 0 k)) c0

/-- A head's output over the block. -/
def headB (xb w1t : Sq) (b1r : Rw) (w2t : Sq) (b2r : Rw) (r d : Fin 256) : EReal :=
  (∑ k : Fin 256, hidB xb w1t b1r r k * w2t (ix2 k d)) + b2r (ix2 0 d)

/-- Row r of the block: max (∑_d P − ∑_d N) 0. -/
def rowB (xb yb zb w1mt : Sq) (b1mr : Rw) (w2mt : Sq) (b2mr : Rw) (w1lt : Sq) (b1lr : Rw) (w2lt : Sq) (b2lr : Rw)
    (ey ey2 ez ez2 : Rw) (r : Fin 256) : EReal :=
  max ((∑ d : Fin 256, posK (headB xb w1mt b1mr w2mt b2mr r d) (yb (ix2 r d)) (zb (ix2 r d)) (inv2var (headB xb w1lt b1lr w2lt b2lr r d)))
      - ∑ d : Fin 256, negK (headB xb w1mt b1mr w2mt b2mr r d) (ey (ix2 0 d)) (ey2 (ix2 0 d)) (ez (ix2 0 d)) (ez2 (ix2 0 d))
          (inv2var (headB xb w1lt b1lr w2lt b2lr r d))) c0

/-- The block's sum over its rows. -/
def tileB (xb yb zb w1mt : Sq) (b1mr : Rw) (w2mt : Sq) (b2mr : Rw) (w1lt : Sq) (b1lr : Rw) (w2lt : Sq) (b2lr : Rw)
    (ey ey2 ez ez2 : Rw) : EReal :=
  ∑ r : Fin 256, rowB xb yb zb w1mt b1mr w2mt b2mr w1lt b1lr w2lt b2lr ey ey2 ez ez2 r

end Cert.Club

end
-- ==== Proof.SpecAlgebra.lean ====
/-
  The two results of Spec.lean agree on finite inputs: pure algebra on the extended reals.

  The literals denote 0, 2, 1024 and 1/1024.  The first head's output μ is a real number, because the inputs it
  reads are real and the reals are closed under sums, products and maxima.  For a real μ and real columns
  the mean of the squared differences expands into the column moments:
    (1/1024) ∑_j ((y_j − μ)² + (z_j − μ)²) = (E[y²] − 2μ E[y] + μ²) + (E[z²] − 2μ E[z] + μ²),
  so the two negative terms agree; the positive terms agree because 0 − a = −a.  The sum over the 1024 rows
  is the sum over the four tiles of the sums over their 256 rows, and dividing by 1024 is multiplying by 1/1024.
-/
import proofs.«166566_j66649302499430_1_alg».proof.Proof.Spec
import Mathlib.Data.EReal.Operations
import Mathlib.Algebra.BigOperators.Fin
import Mathlib.Algebra.BigOperators.Ring.Finset
import Mathlib.Data.Fintype.BigOperators
import Mathlib.Tactic.Ring
import Mathlib.Tactic.NormNum

noncomputable section

open scoped BigOperators

namespace Cert.Club

open Idealize.ShloMosaic Idealize.ShloMosaic.ValueIdx

/-! ## The literals -/

theorem c0_eq : c0 = 0 := by
  unfold c0; exact Ideal.ofBits_zero_f32

theorem c2_eq : c2 = ((2 : ℝ) : EReal) := by
  simp [c2, Ideal.ofBits, Ideal.ieee, -EReal.coe_mul]; norm_num

theorem cN_eq : cN = ((1024 : ℝ) : EReal) := by
  simp [cN, Ideal.ofBits, Ideal.ieee, -EReal.coe_mul]; norm_num

theorem cInvN_eq : cInvN = ((1 / 1024 : ℝ) : EReal) := by
  simp [cInvN, Ideal.ofBits, Ideal.ieee, -EReal.coe_mul]; norm_num

/-! ## Real values -/

/-- An extended real that is a real number. -/
def IsR (a : EReal) : Prop := ∃ r : ℝ, a = (r : EReal)

theorem IsR.zero : IsR 0 := ⟨0, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases max_choice a b with h | h <;> rw [h] <;> assumption

theorem IsR.sum {ι : Type} (s : Finset ι) (f : ι → EReal) (h : ∀ i, IsR (f i)) : IsR (∑ i ∈ s, f i) :=
  Finset.sum_induction f IsR (fun _ _ => IsR.add) IsR.zero (fun i _ => h i)

/-- A finite sum of real numbers, read in the extended reals, is the sum in the reals. -/
theorem coe_sum {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The hidden layer is real on real inputs. -/
theorem hid_isR (x : Mat) (w : Sq) (b : Vc) (hx : ∀ i, IsR (x i)) (hw : ∀ i, IsR (w i)) (hb : ∀ i, IsR (b i))
    (i : Fin 1024) (k : Fin 256) : IsR (hid x w b i k) := by
  unfold hid
  rw [c0_eq]
  exact ((IsR.sum _ _ (fun q => (hx _).mul (hw _))).add (hb _)).max IsR.zero

/-- A head's output is real on real inputs. -/
theorem head_isR (x : Mat) (w1 : Sq) (b1 : Vc) (w2 : Sq) (b2 : Vc)
    (hx : ∀ i, IsR (x i)) (hw1 : ∀ i, IsR (w1 i)) (hb1 : ∀ i, IsR (b1 i))
    (hw2 : ∀ i, IsR (w2 i)) (hb2 : ∀ i, IsR (b2 i))
    (i : Fin 1024) (d : Fin 256) : IsR (head x w1 b1 w2 b2 i d) := by
  unfold head
  exact (IsR.sum _ _ (fun k => (hid_isR x w1 b1 hx hw1 hb1 i k).mul (hw2 _))).add (hb2 _)

/-! ## The two terms at one element -/

/-- 0 − a = −a. -/
theorem posK_eq_posR (mu y z g : EReal) : posK mu y z g = posR mu y z g := by
  unfold posK posR
  rw [c0_eq, zero_sub]

/-- In the reals: the mean of the squared differences from μ, expanded into the moments. -/
theorem moments_real (Y Z : Fin 1024 → ℝ) (m : ℝ) :
    -((∑ j, Y j * Y j) * (1 / 1024) - 2 * m * ((∑ j, Y j) * (1 / 1024)) + m * m
        + ((∑ j, Z j * Z j) * (1 / 1024) - 2 * m * ((∑ j, Z j) * (1 / 1024)) + m * m))
      = -((∑ j, ((Y j - m) * (Y j - m) + (Z j - m) * (Z j - m))) * (1 / 1024)) := by
  have hexp : ∀ j, (Y j - m) * (Y j - m) + (Z j - m) * (Z j - m)
      = (Y j * Y j + Z j * Z j) - (2 * m) * (Y j + Z j) + 2 * (m * m) := fun j => by ring
  simp only [hexp, Finset.sum_add_distrib, Finset.sum_sub_distrib, ← Finset.mul_sum, Finset.sum_const,
    Finset.card_univ, Fintype.card_fin, nsmul_eq_mul]
  push_cast
  ring

/-- For a real μ and real columns the kernel's negative term is the reference's, whatever the factor g. -/
theorem negK_eq_negR (y z : Mat) (d : Fin 256) (mu g : EReal)
    (hy : ∀ i, IsR (y i)) (hz : ∀ i, IsR (z i)) (hmu : IsR mu) :
    negK mu (colMean y d) (colMeanSq y d) (colMean z d) (colMeanSq z d) g = negR y z d mu g := by
  obtain ⟨m, rfl⟩ := hmu
  choose Y hY using fun j : Fin 1024 => hy (ix2 j d)
  choose Z hZ using fun j : Fin 1024 => hz (ix2 j d)
  have h1024 : (1024 : ℝ) ≠ 0 := by norm_num
  unfold negK negR colMean colMeanSq
  simp only [hY, hZ, c0_eq, c2_eq, cN_eq, Ideal.div_coe h1024, zero_add, zero_sub]
  congr 1
  simp only [← EReal.coe_mul, ← EReal.coe_add, ← EReal.coe_sub, coe_sum, ← EReal.coe_neg]
  rw [moments_real Y Z m]

/-! ## One row -/

theorem rowK_eq_rowR (x y z : Mat) (w1m : Sq) (b1m : Vc) (w2m : Sq) (b2m : Vc) (w1l : Sq) (b1l : Vc) (w2l : Sq) (b2l : Vc)
    (hx : ∀ i, IsR (x i)) (hy : ∀ i, IsR (y i)) (hz : ∀ i, IsR (z i))
    (hw1m : ∀ i, IsR (w1m i)) (hb1m : ∀ i, IsR (b1m i)) (hw2m : ∀ i, IsR (w2m i)) (hb2m : ∀ i, IsR (b2m i))
    (i : Fin 1024) :
    rowK x y z w1m b1m w2m b2m w1l b1l w2l b2l i = rowR x y z w1m b1m w2m b2m w1l b1l w2l b2l i := by
  have hN : ∀ d : Fin 256,
      negK (head x w1m b1m w2m b2m i d) (colMean y d) (colMeanSq y d) (colMean z d) (colMeanSq z d)
          (inv2var (head x w1l b1l w2l b2l i d))
        = negR y z d (head x w1m b1m w2m b2m i d) (inv2var (head x w1l b1l w2l b2l i d)) :=
    fun d => negK_eq_negR y z d _ _ hy hz (head_isR x w1m b1m w2m b2m hx hw1m hb1m hw2m hb2m i d)
  unfold rowK rowR
  simp only [hN, posK_eq_posR, c0_eq, zero_add]

/-! ## The rows in four tiles -/

/-- (t, r) ↦ 256 t + r is a bijection from the four tiles of 256 rows onto the 1024 rows. -/
def tileEquiv : Fin 4 × Fin 256 ≃ Fin 1024 where
  toFun p := tileRow p.1 p.2
  invFun i := (⟨i.val / 256, by have := i.isLt; omega⟩, ⟨i.val % 256, by omega⟩)
  left_inv := by
    rintro ⟨t, r⟩
    have := t.isLt; have := r.isLt
    apply Prod.ext <;> apply Fin.ext <;> dsimp only [tileRow] <;> omega
  right_inv := by
    intro i
    have := i.isLt
    apply Fin.ext
    dsimp only [tileRow]
    omega

/-- A sum over the rows is the sum over the tiles of the sums over their rows. -/
theorem sum_tiles (f : Fin 1024 → EReal) :
    ∑ i : Fin 1024, f i = ∑ t : Fin 4, ∑ r : Fin 256, f (tileRow t r) := by
  rw [← Equiv.sum_comp tileEquiv f, Fintype.sum_prod_type]
  rfl

/-! ## The results -/

theorem resK_eq_resR (x y z : Mat) (w1m : Sq) (b1m : Vc) (w2m : Sq) (b2m : Vc) (w1l : Sq) (b1l : Vc) (w2l : Sq) (b2l : Vc)
    (hx : ∀ i, ∃ r : ℝ, x i = (r : EReal)) (hy : ∀ i, ∃ r : ℝ, y i = (r : EReal)) (hz : ∀ i, ∃ r : ℝ, z i = (r : EReal))
    (hw1m : ∀ i, ∃ r : ℝ, w1m i = (r : EReal)) (hb1m : ∀ i, ∃ r : ℝ, b1m i = (r : EReal))
    (hw2m : ∀ i, ∃ r : ℝ, w2m i = (r : EReal)) (hb2m : ∀ i, ∃ r : ℝ, b2m i = (r : EReal)) :
    resK x y z w1m b1m w2m b2m w1l b1l w2l b2l = resR x y z w1m b1m w2m b2m w1l b1l w2l b2l := by
  have h1024 : (1024 : ℝ) ≠ 0 := by norm_num
  have hrow : ∀ i : Fin 1024,
      rowK x y z w1m b1m w2m b2m w1l b1l w2l b2l i = rowR x y z w1m b1m w2m b2m w1l b1l w2l b2l i :=
    rowK_eq_rowR x y z w1m b1m w2m b2m w1l b1l w2l b2l hx hy hz hw1m hb1m hw2m hb2m
  unfold resK resR tileK
  rw [cN_eq, Ideal.div_coe h1024, cInvN_eq, sum_tiles, Fin.sum_univ_four]
  simp only [hrow, add_assoc]

end Cert.Club

end
-- ==== Proof.Finite.lean ====
/-
  Finiteness of the inputs, read back from the precondition at the extended reals.

  The precondition is the conjunction, over the eleven float inputs a, of "every entry of a has |a i| < +∞",
  each such statement being the and-fold over all entries of the compare bits, and the whole being the bit 1.
  Over the extended reals |x| is max x (−x) and +∞ is the word 0x7F800000, which denotes ⊤; an x with
  max x (−x) < ⊤ is neither ⊥ (whose negation is ⊤) nor ⊤, hence the coercion of a real number.
  So from the precondition every entry of every input is the coercion of a real number.
-/
import proofs.«166566_j66649302499430_1_alg».proof.Pre_finite_inputs
import proofs.«166566_j66649302499430_1_alg».proof.Proof.Gen.Pre_finite_inputs
import Idealize.ShloMosaic.Lib.ReduceAll
import Idealize.ShloMosaic.PureOps.Ideal
import Idealize.ShloMosaic.Lib.ValueIdx

noncomputable section

namespace Cert.Club.Finite

open Idealize.ShloMosaic Idealize.ShloMosaic.ValueIdx
open Cert.Pre_finite_inputs

instance : Subsingleton S_.Idx := ⟨fun a b => funext fun d => d.elim0⟩

/-- An extended real whose absolute value lies strictly below +∞ (the f32 word 0x7F800000) is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An entry whose compare bit |a i| < +∞ is 1 is a real number. -/
theorem entry_real {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) :=
  real_of_abs_lt_top (a i) h

/-- If the conjunction over all entries of the compare bits is 1, every entry is a real number. -/
theorem all_real {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant S_ .f32 0x7F800000#32)))
          (constantI S_ 1 1#1) hr hu ix0 = 1#1) :
    ∀ i, ∃ r : ℝ, a i = (r : EReal) :=
  fun i => entry_real hb a i (Host.reduce_andi_all _ _ hr hu ix0 h i)

theorem real_of_pre [hP : Cert.Pre_finite_inputs.Facts]
    (a0 a1 a2 : FVec Ideal Cert.Pre_finite_inputs.S1024x256 .f32) (a3 : FVec Ideal Cert.Pre_finite_inputs.S256x256 .f32) (a4 : FVec Ideal Cert.Pre_finite_inputs.S256 .f32)
    (a5 : FVec Ideal Cert.Pre_finite_inputs.S256x256 .f32) (a6 : FVec Ideal Cert.Pre_finite_inputs.S256 .f32) (a7 : FVec Ideal Cert.Pre_finite_inputs.S256x256 .f32)
    (a8 : FVec Ideal Cert.Pre_finite_inputs.S256 .f32) (a9 : FVec Ideal Cert.Pre_finite_inputs.S256x256 .f32) (a10 : FVec Ideal Cert.Pre_finite_inputs.S256 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) := by
  have h0 := congrFun h ix0
  dsimp only [fn, fn_part1, fn_part2, fn_part3] at h0
  have split : ∀ (X Y : IVec S_ 1), andi X Y ix0 = 1#1 → X ix0 = 1#1 ∧ Y ix0 = 1#1 :=
    fun X Y e => IntOp.andi_eq_one.1 e
  obtain ⟨h0, e10⟩ := split _ _ h0
  obtain ⟨h0, e9⟩ := split _ _ h0
  obtain ⟨h0, e8⟩ := split _ _ h0
  obtain ⟨h0, e7⟩ := split _ _ h0
  obtain ⟨h0, e6⟩ := split _ _ h0
  obtain ⟨h0, e5⟩ := split _ _ h0
  obtain ⟨h0, e4⟩ := split _ _ h0
  obtain ⟨h0, e3⟩ := split _ _ h0
  obtain ⟨h0, e2⟩ := split _ _ h0
  obtain ⟨e0, e1⟩ := split _ _ h0
  exact ⟨all_real _ _ _ a0 e0, all_real _ _ _ a1 e1, all_real _ _ _ a2 e2, all_real _ _ _ a3 e3,
    all_real _ _ _ a4 e4, all_real _ _ _ a5 e5, all_real _ _ _ a6 e6, all_real _ _ _ a7 e7,
    all_real _ _ _ a8 e8, all_real _ _ _ a9 e9, all_real _ _ _ a10 e10⟩

end Cert.Club.Finite

end
-- ==== Proof.RefValue.lean ====
/-
  The reference program's result is the specification's `resR`.

  Each lemma reads one named intermediate array of the reference at explicit coordinates and identifies it with the
  specification's function of the inputs: the hidden layer, the head, 1 / (2 · exp (tanh ℓ)), the positive term,
  the mean over j of the squared differences and the negative term, the two lane sums, the row, the result.
-/
import proofs.«166566_j66649302499430_1_alg».proof.Proof.Gen.ReferenceIdeal.Read
import proofs.«166566_j66649302499430_1_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Cert.Club.RefValue

open Cert.ReferenceIdeal Cert.ReferenceIdeal.Read Idealize.ShloMosaic Idealize.ShloMosaic.ValueIdx Cert.Club

/-! ## Index equations -/

/-- The left operand of a product [1024,256]·[256,256] at (i, d), k is read at (i, k). -/
theorem lidx_eq (i : Fin 1024) (d k : Fin 256) : lidx_main_v1 (ix2 i d) k = ix2 i k := by
  funext a; apply Fin.ext
  match a with
  | ⟨0, _⟩ => rfl
  | ⟨1, _⟩ => rfl

/-- The transposed right operand at (i, d), k is the stored matrix at (d, k). -/
theorem tridx_eq (i : Fin 1024) (d k : Fin 256) : idx_main_v0 (ridx_main_v1 (ix2 i d) k) = ix2 d k := by
  funext a; apply Fin.ext
  match a with
  | ⟨0, _⟩ => rfl
  | ⟨1, _⟩ => rfl

/-- The bias broadcast along the rows at (i, d) is the vector at d. -/
theorem bidx_eq (i : Fin 1024) (d : Fin 256) : idx_main_v2 (idx_main_v3 (ix2 i d)) = ix1 d := by
  funext a; apply Fin.ext
  match a with
  | ⟨0, _⟩ => rfl

/-! ## The two heads -/

/-- The hidden layer of the first head. -/
theorem hid_mu (x0 : Mat) (x3 : Sq) (x4 : Vc) (i : Fin 1024) (k : Fin 256) :
    val_main_v5 (F := Ideal) x0 x3 x4 (ix2 i k) = hid x0 x3 x4 i k := by
  rw [val_main_v5_apply, val_main_v4_apply, val_main_v1_apply, val_main_v3_apply, val_main_v2_apply,
    val_main_call0_v0_apply, val_main_call0_cst_apply]
  simp only [val_main_v0_apply, Ideal.addf_def, Ideal.maximumf_def, Ideal.ofBits_def, lidx_eq, tridx_eq, bidx_eq]
  rfl

/-- The first head. -/
theorem head_mu (x0 : Mat) (x3 : Sq) (x4 : Vc) (x5 : Sq) (x6 : Vc) (i : Fin 1024) (d : Fin 256) :
    val_main_v10 (F := Ideal) x0 x3 x4 x5 x6 (ix2 i d) = head x0 x3 x4 x5 x6 i d := by
  rw [val_main_v10_apply, val_main_v7_apply, val_main_v9_apply, val_main_v8_apply]
  simp only [val_main_v6_apply, Ideal.addf_def]
  have hl : ∀ k : Fin 256, lidx_main_v7 (ix2 i d) k = ix2 i k := lidx_eq i d
  have hr : ∀ k : Fin 256, idx_main_v6 (ridx_main_v7 (ix2 i d) k) = ix2 d k := tridx_eq i d
  have hb : idx_main_v8 (idx_main_v9 (ix2 i d)) = ix1 d := bidx_eq i d
  simp only [hl, hr, hb, hid_mu]
  rfl

/-- The hidden layer of the second head. -/
theorem hid_lv (x0 : Mat) (x7 : Sq) (x8 : Vc) (i : Fin 1024) (k : Fin 256) :
    val_main_v16 (F := Ideal) x0 x7 x8 (ix2 i k) = hid x0 x7 x8 i k := by
  rw [val_main_v16_apply, val_main_v15_apply, val_main_v12_apply, val_main_v14_apply, val_main_v13_apply,
    val_main_call1_v0_apply, val_main_call1_cst_apply]
  have hl : ∀ q : Fin 256, lidx_main_v12 (ix2 i k) q = ix2 i q := lidx_eq i k
  have hr : ∀ q : Fin 256, idx_main_v11 (ridx_main_v12 (ix2 i k) q) = ix2 k q := tridx_eq i k
  have hb : idx_main_v13 (idx_main_v14 (ix2 i k)) = ix1 k := bidx_eq i k
  simp only [val_main_v11_apply, Ideal.addf_def, Ideal.maximumf_def, Ideal.ofBits_def, hl, hr, hb]
  rfl

/-- The second head. -/
theorem head_lv (x0 : Mat) (x7 : Sq) (x8 : Vc) (x9 : Sq) (x10 : Vc) (i : Fin 1024) (d : Fin 256) :
    val_main_v21 (F := Ideal) x0 x7 x8 x9 x10 (ix2 i d) = head x0 x7 x8 x9 x10 i d := by
  rw [val_main_v21_apply, val_main_v18_apply, val_main_v20_apply, val_main_v19_apply]
  simp only [val_main_v17_apply, Ideal.addf_def]
  have hl : ∀ k : Fin 256, lidx_main_v18 (ix2 i d) k = ix2 i k := lidx_eq i d
  have hr : ∀ k : Fin 256, idx_main_v17 (ridx_main_v18 (ix2 i d) k) = ix2 d k := tridx_eq i d
  have hb : idx_main_v19 (idx_main_v20 (ix2 i d)) = ix1 d := bidx_eq i d
  simp only [hl, hr, hb, hid_lv]
  rfl

/-! ## The elementwise terms -/

/-- 1 / (2 · exp (tanh ℓ)) of the second head. -/
theorem inv2var_eq (x0 : Mat) (x7 : Sq) (x8 : Vc) (x9 : Sq) (x10 : Vc) (i : Fin 1024) (d : Fin 256) :
    val_main_v27 (F := Ideal) x0 x7 x8 x9 x10 (ix2 i d) = inv2var (head x0 x7 x8 x9 x10 i d) := by
  rw [val_main_v27_apply, val_main_v26_apply, val_main_cst_0_apply, val_main_v25_apply, val_main_v24_apply,
    val_main_cst_apply, val_main_v23_apply, val_main_v22_apply, head_lv]
  simp only [Ideal.hostDivf_def, Ideal.mulf_def, Ideal.hostUnary_exp_def, Ideal.hostUnary_tanh_def, Ideal.ofBits_def]
  rfl

/-- The positive term. -/
theorem pos_eq (x0 x1 x2 : Mat) (x3 : Sq) (x4 : Vc) (x5 : Sq) (x6 : Vc) (x7 : Sq) (x8 : Vc) (x9 : Sq) (x10 : Vc)
    (i : Fin 1024) (d : Fin 256) :
    val_main_v34 (F := Ideal) x0 x1 x2 x3 x4 x5 x6 x7 x8 x9 x10 (ix2 i d)
      = posR (head x0 x3 x4 x5 x6 i d) (x1 (ix2 i d)) (x2 (ix2 i d)) (inv2var (head x0 x7 x8 x9 x10 i d)) := by
  rw [val_main_v34_apply, val_main_v33_apply, val_main_v32_apply, val_main_v29_apply, val_main_v31_apply,
    val_main_v28_apply, val_main_v30_apply, head_mu, inv2var_eq]
  simp only [Ideal.hostNegf_def, Ideal.negf_def, Ideal.addf_def, Ideal.mulf_def, Ideal.subf_def]
  rfl

/-! ## The mean over the samples j -/

/-- The samples broadcast over i, at (i, j, d), are read at (j, d). -/
theorem yidx_eq (i j : Fin 1024) (d : Fin 256) : idx_main_v36 (idx_main_v37 (ix3 i j d)) = ix2 j d := by
  funext a; apply Fin.ext
  match a with
  | ⟨0, _⟩ => rfl
  | ⟨1, _⟩ => rfl

/-- The head broadcast over j, at (i, j, d), is read at (i, d). -/
theorem pidx_eq (i j : Fin 1024) (d : Fin 256) : idx_main_v35 (idx_main_v38 (ix3 i j d)) = ix2 i d := by
  funext a; apply Fin.ext
  match a with
  | ⟨0, _⟩ => rfl
  | ⟨1, _⟩ => rfl

/-- The squared differences at (i, j, d). -/
theorem sq_eq (x0 x1 x2 : Mat) (x3 : Sq) (x4 : Vc) (x5 : Sq) (x6 : Vc) (i j : Fin 1024) (d : Fin 256) :
    val_main_v46 (F := Ideal) x0 x1 x2 x3 x4 x5 x6 (ix3 i j d)
      = (x1 (ix2 j d) - head x0 x3 x4 x5 x6 i d) * (x1 (ix2 j d) - head x0 x3 x4 x5 x6 i d)
        + (x2 (ix2 j d) - head x0 x3 x4 x5 x6 i d) * (x2 (ix2 j d) - head x0 x3 x4 x5 x6 i d) := by
  rw [val_main_v46_apply, val_main_v40_apply, val_main_v45_apply, val_main_v39_apply, val_main_v44_apply,
    val_main_v37_apply, val_main_v36_apply, val_main_v38_apply, val_main_v42_apply, val_main_v41_apply,
    val_main_v43_apply]
  have hy : idx_main_v41 (idx_main_v42 (ix3 i j d)) = ix2 j d := yidx_eq i j d
  have hp : idx_main_v35 (idx_main_v43 (ix3 i j d)) = ix2 i d := pidx_eq i j d
  simp only [val_main_v35_apply, yidx_eq, pidx_eq, hy, hp, head_mu, Ideal.addf_def, Ideal.mulf_def, Ideal.subf_def]

/-- The sum over j at (i, d) reads (i, j, d). -/
theorem ridx_eq (i k : Fin 1024) (d : Fin 256) : idx_main_v47 (ix2 i d) k = ix3 i k d := by
  funext a; apply Fin.ext
  match a with
  | ⟨0, _⟩ => rfl
  | ⟨1, _⟩ => rfl
  | ⟨2, _⟩ => rfl

/-- The negative term. -/
theorem neg_eq (x0 x1 x2 : Mat) (x3 : Sq) (x4 : Vc) (x5 : Sq) (x6 : Vc) (x7 : Sq) (x8 : Vc) (x9 : Sq) (x10 : Vc)
    (i : Fin 1024) (d : Fin 256) :
    val_main_v51 (F := Ideal) x0 x1 x2 x3 x4 x5 x6 x7 x8 x9 x10 (ix2 i d)
      = negR x1 x2 d (head x0 x3 x4 x5 x6 i d) (inv2var (head x0 x7 x8 x9 x10 i d)) := by
  rw [val_main_v51_apply, val_main_v50_apply, val_main_v49_apply, val_main_v47_apply, val_main_v48_apply,
    val_main_cst_2_apply, val_main_cst_1_apply, inv2var_eq]
  simp only [ridx_eq, sq_eq, Ideal.hostNegf_def, Ideal.negf_def, Ideal.mulf_def, Ideal.hostDivf_def, Ideal.ofBits_def]
  rfl

/-! ## The lane sums, the row, the result -/

/-- The lane sum at i reads (i, d). -/
theorem lidx1_eq (i : Fin 1024) (k : Fin 256) : idx_main_v52 (ix1 i) k = ix2 i k := by
  funext a; apply Fin.ext
  match a with
  | ⟨0, _⟩ => rfl
  | ⟨1, _⟩ => rfl

/-- The lane sum of the positive terms, from the literal 0. -/
theorem possum_eq (x0 x1 x2 : Mat) (x3 : Sq) (x4 : Vc) (x5 : Sq) (x6 : Vc) (x7 : Sq) (x8 : Vc) (x9 : Sq) (x10 : Vc)
    (i : Fin 1024) :
    val_main_v52 (F := Ideal) x0 x1 x2 x3 x4 x5 x6 x7 x8 x9 x10 (ix1 i)
      = c0 + ∑ d : Fin 256, posR (head x0 x3 x4 x5 x6 i d) (x1 (ix2 i d)) (x2 (ix2 i d)) (inv2var (head x0 x7 x8 x9 x10 i d)) := by
  rw [val_main_v52_apply, val_main_cst_3_apply]
  simp only [lidx1_eq, pos_eq, Ideal.ofBits_def]
  rfl

/-- The lane sum of the negative terms, from the literal 0. -/
theorem negsum_eq (x0 x1 x2 : Mat) (x3 : Sq) (x4 : Vc) (x5 : Sq) (x6 : Vc) (x7 : Sq) (x8 : Vc) (x9 : Sq) (x10 : Vc)
    (i : Fin 1024) :
    val_main_v53 (F := Ideal) x0 x1 x2 x3 x4 x5 x6 x7 x8 x9 x10 (ix1 i)
      = c0 + ∑ d : Fin 256, negR x1 x2 d (head x0 x3 x4 x5 x6 i d) (inv2var (head x0 x7 x8 x9 x10 i d)) := by
  rw [val_main_v53_apply, val_main_cst_4_apply]
  have hi : ∀ k : Fin 256, idx_main_v53 (ix1 i) k = ix2 i k := lidx1_eq i
  simp only [hi, neg_eq, Ideal.ofBits_def]
  rfl

/-- Row i. -/
theorem row_eq (x0 x1 x2 : Mat) (x3 : Sq) (x4 : Vc) (x5 : Sq) (x6 : Vc) (x7 : Sq) (x8 : Vc) (x9 : Sq) (x10 : Vc)
    (i : Fin 1024) :
    val_main_v55 (F := Ideal) x0 x1 x2 x3 x4 x5 x6 x7 x8 x9 x10 (ix1 i) = rowR x0 x1 x2 x3 x4 x5 x6 x7 x8 x9 x10 i := by
  rw [val_main_v55_apply, val_main_v54_apply, possum_eq, negsum_eq, val_main_call2_v0_apply, val_main_call2_cst_apply]
  simp only [Ideal.subf_def, Ideal.maximumf_def, Ideal.ofBits_def]
  rfl

/-- The reference's result is `resR`. -/
theorem ref_val (x0 x1 x2 : Mat) (x3 : Sq) (x4 : Vc) (x5 : Sq) (x6 : Vc) (x7 : Sq) (x8 : Vc) (x9 : Sq) (x10 : Vc) :
    val_main_v57 (F := Ideal) x0 x1 x2 x3 x4 x5 x6 x7 x8 x9 x10
      = fun _ => resR x0 x1 x2 x3 x4 x5 x6 x7 x8 x9 x10 := by
  funext j
  rw [val_main_v57_apply, val_main_v56_apply, val_main_cst_5_apply, val_main_cst_6_apply]
  have hs : ∑ r : S1024.Idx, val_main_v55 (F := Ideal) x0 x1 x2 x3 x4 x5 x6 x7 x8 x9 x10 r
      = ∑ i : Fin 1024, rowR x0 x1 x2 x3 x4 x5 x6 x7 x8 x9 x10 i := by
    refine ((Equiv.sum_comp (idxEquiv1 (n := 1024)).symm _).symm).trans ?_
    exact Finset.sum_congr rfl fun k _ => row_eq x0 x1 x2 x3 x4 x5 x6 x7 x8 x9 x10 k
  rw [hs]
  simp only [Ideal.hostDivf_def, Ideal.ofBits_def]
  rfl

end Cert.Club.RefValue

end
-- ==== Proof.Pieces.lean ====
/-
  What each control case of the kernel body leaves in the carried [1,1] accumulator and, at the last grid point,
  in the output's staging buffer, as pure terms of the fifteen input blocks: the accumulator after a point is
  `step blocks acc` — the previous accumulator (the literal 0 at the first point, where the body resets it first)
  plus the tile's sum —, and at the last point the output block is the new accumulator times the literal 1/1024.
  Generic in the float instance.
-/
import proofs.«166566_j66649302499430_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Club.Pieces

open Cert.KernelIdeal Cert.KernelIdeal.Gen

variable {F : FTy → Type} [FloatOps F]

theorem hz : (![0, 0] : Fin 2 → Nat) = fun _ => 0 := funext fun a => by fin_cases a <;> rfl

/-- One grid point's update of the accumulator: the body's store payload over the point's fifteen blocks. -/
def step (x0 : Vec F S256x256 .f32) (x1 : Vec F S256x256 .f32) (x2 : Vec F S256x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S1x256 .f32) (x12 : Vec F S1x256 .f32) (x13 : Vec F S1x256 .f32) (x14 : Vec F S1x256 .f32) (acc : Vec F S1x1 .f32) : Vec F S1x1 .f32 :=
  k0_pay1 (k0_pay5 x0 x3 x4 x5 x6) (k0_pay7 (k0_pay6 x0 x7 x8) x9 x10)
    (k0_pay8 (k0_pay5 x0 x3 x4 x5 x6) (k0_pay6 x0 x7 x8) x9 x10 x1 x2) (k0_pay9 x13) (k0_pay10 x14)
    (k0_pay11 (k0_pay5 x0 x3 x4 x5 x6)) (k0_pay12 (k0_pay5 x0 x3 x4 x5 x6) x11 x12) (Scalar.ofBits .f32 0x40000000#32) acc

/-- The first point: the body resets the accumulator to the literal 0, reads it back, and leaves `step blocks 0`. -/
theorem scratch_A (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 : Vec F S256x256 .f32) (x1 : Vec F S256x256 .f32) (x2 : Vec F S256x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S1x256 .f32) (x12 : Vec F S1x256 .f32) (x13 : Vec F S1x256 .f32) (x14 : Vec F S1x256 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 x14 = step x0 x1 x2 x3 x4 x5 x6 x7 x8 x9 x10 x11 x12 x13 x14 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 x14)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x256) hz, View.ld_unit_zero (S := S1x256) hz, View.ld_unit_zero (S := S1x1) hz, View.readCov_unit_zero (S := S1x1) _ hz, step]

/-- A middle point: the accumulator holding `xs0` ends at `step blocks xs0`. -/
theorem scratch_B (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S1x256 .f32) (x12 : Vec F S1x256 .f32) (x13 : Vec F S1x256 .f32) (x14 : Vec F S1x256 .f32) (xs0 : Vec F S1x1 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 x14 xs0 = step x0 x1 x2 x3 x4 x5 x6 x7 x8 x9 x10 x11 x12 x13 x14 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 x14 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x256) hz, View.ld_unit_zero (S := S1x256) hz, View.ld_unit_zero (S := S1x1) hz, View.readCov_unit_zero (S := S1x1) _ hz, step]

/-- The last point: the accumulator likewise ends at `step blocks xs0`. -/
theorem scratch_C (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 : Vec F S256x256 .f32) (x1 : Vec F S256x256 .f32) (x2 : Vec F S256x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S1x256 .f32) (x12 : Vec F S1x256 .f32) (x13 : Vec F S1x256 .f32) (x14 : Vec F S1x256 .f32) (xs0 : Vec F S1x1 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 x14 xs0 = step x0 x1 x2 x3 x4 x5 x6 x7 x8 x9 x10 x11 x12 x13 x14 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 x14 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x256) hz, View.ld_unit_zero (S := S1x256) hz, View.ld_unit_zero (S := S1x1) hz, View.readCov_unit_zero (S := S1x1) _ hz, step]

/-- The last point: the output block is the new accumulator, read back, times the literal 1/1024. -/
theorem out_C (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 : Vec F S256x256 .f32) (x1 : Vec F S256x256 .f32) (x2 : Vec F S256x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x256 .f32) (x10 : Vec F S1x256 .f32) (x11 : Vec F S1x256 .f32) (x12 : Vec F S1x256 .f32) (x13 : Vec F S1x256 .f32) (x14 : Vec F S1x256 .f32) (xs0 : Vec F S1x1 .f32) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 x14 xs0 = k0_pay2 (step x0 x1 x2 x3 x4 x5 x6 x7 x8 x9 x10 x11 x12 x13 x14 xs0) := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 x14 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x256) hz, View.ld_unit_zero (S := S1x256) hz, View.ld_unit_zero (S := S1x1) hz, View.readCov_unit_zero (S := S1x1) _ hz, step]

end Cert.Club.Pieces

end
-- ==== Proof.Chain.lean ====
/-
  The accumulator over the grid.  After grid point n the carried [1,1] scratch holds the ordered chain
  a₀ = step blocks₀ 0,  aₙ₊₁ = step blocksₙ₊₁ aₙ  (by induction on the point, through the three control cases),
  and at the last point (n = 3) the output's staging buffer holds a₃ times the literal 1/1024.
  Generic in the float instance.
-/
import proofs.«166566_j66649302499430_1_alg».proof.Proof.Pieces

set_option maxRecDepth 16384

noncomputable section

open Idealize.ShloMosaic Idealize.ShloMosaic.TcCoe Idealize.SL.Sem
open Idealize.ShloMosaic.Pipeline (Dat)

namespace Cert.Club.Chain

open Cert.KernelIdeal Cert.KernelIdeal.Gen Cert.Club.Pieces

variable {F : FTy → Type} [FloatOps F]
variable (m : (ℓ : Loc nD τ sig) → Buf (Elt F) ℓ)

/-- The update at grid point t, over that point's fifteen blocks. -/
def stepAt (c : Dev nD) (t : Fin cfg0.N) (acc : Vec F S1x1 .f32) : Vec F S1x1 .f32 :=
  step (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) acc

/-- The ordered chain of accumulator contents. -/
def chain (c : Dev nD) : (n : ℕ) → n < cfg0.N → Vec F S1x1 .f32
  | 0, h => stepAt m c ⟨0, h⟩ k0_pay3
  | n + 1, h => stepAt m c ⟨n + 1, h⟩ (chain c n (Nat.lt_of_succ_lt h))

/-- What the carried scratch holds after point n is the chain's n-th term. -/
theorem scratch_eq (c : Dev nD) : ∀ (n : ℕ) (h : n < cfg0.N), (outsAt0 m c n h).2 = chain m c n h
  | 0, h => by
    have h0 : (⟨0, h⟩ : Fin cfg0.N).val % 4 = 0 := rfl
    have h1 : ¬(⟨0, h⟩ : Fin cfg0.N).val % 4 = 3 := by show ¬(0 % 4 = 3); decide
    rw [outsAt0_A m c ⟨0, h⟩ h0 h1]
    dsimp only
    exact scratch_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) (iblk m c 13 ⟨0, h⟩) (iblk m c 14 ⟨0, h⟩)
  | n + 1, h => by
    have hN : cfg0.N = 4 := N_0
    have h0 : ¬(⟨n + 1, h⟩ : Fin cfg0.N).val % 4 = 0 := by dsimp only; omega
    have ih := scratch_eq c n (Nat.lt_of_succ_lt h)
    by_cases h1 : (⟨n + 1, h⟩ : Fin cfg0.N).val % 4 = 3
    · rw [outsAt0_C m c ⟨n + 1, h⟩ h0 h1]
      dsimp only
      refine (scratch_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) (iblk m c 14 ⟨n + 1, h⟩) (outsAt0 m c n (Nat.lt_of_succ_lt h)).2).trans ?_
      show stepAt m c ⟨n + 1, h⟩ (outsAt0 m c n (Nat.lt_of_succ_lt h)).2 = stepAt m c ⟨n + 1, h⟩ (chain m c n (Nat.lt_of_succ_lt h))
      rw [ih]
    · rw [outsAt0_B m c ⟨n + 1, h⟩ h0 h1]
      dsimp only
      refine (scratch_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) (iblk m c 14 ⟨n + 1, h⟩) (outsAt0 m c n (Nat.lt_of_succ_lt h)).2).trans ?_
      show stepAt m c ⟨n + 1, h⟩ (outsAt0 m c n (Nat.lt_of_succ_lt h)).2 = stepAt m c ⟨n + 1, h⟩ (chain m c n (Nat.lt_of_succ_lt h))
      rw [ih]

/-- The last grid point. -/
theorem three_lt : 3 < cfg0.N := by rw [show cfg0.N = 4 from N_0]; decide

/-- The output block the last point writes: the final accumulator times the literal 1/1024. -/
def outBlock (c : Dev nD) : Vec F S1x1 .f32 := k0_pay2 (chain m c 3 three_lt)

/-- At the last point the output's staging buffer holds `outBlock`. -/
theorem out_last (c : Dev nD) : (outsAt0 m c 3 three_lt).1 = outBlock m c := by
  have h0 : ¬(⟨3, three_lt⟩ : Fin cfg0.N).val % 4 = 0 := by decide
  have h1 : (⟨3, three_lt⟩ : Fin cfg0.N).val % 4 = 3 := rfl
  rw [outsAt0_C m c ⟨3, three_lt⟩ h0 h1]
  dsimp only
  refine (out_C (F := F) c (grid0.coords ⟨3, three_lt⟩) (ms0_0 ⟨3, three_lt⟩) (hs0_0 ⟨3, three_lt⟩) (ms0_1 ⟨3, three_lt⟩) (hs0_1 ⟨3, three_lt⟩) (ms0_2 ⟨3, three_lt⟩) (hs0_2 ⟨3, three_lt⟩) (ms0_3 ⟨3, three_lt⟩) (hs0_3 ⟨3, three_lt⟩) (ms0_4 ⟨3, three_lt⟩) (hs0_4 ⟨3, three_lt⟩) (ms0_5 ⟨3, three_lt⟩) (hs0_5 ⟨3, three_lt⟩) (ms0_6 ⟨3, three_lt⟩) (hs0_6 ⟨3, three_lt⟩) (ms0_7 ⟨3, three_lt⟩) (hs0_7 ⟨3, three_lt⟩) (ms0_8 ⟨3, three_lt⟩) (hs0_8 ⟨3, three_lt⟩) (ms0_9 ⟨3, three_lt⟩) (hs0_9 ⟨3, three_lt⟩) (ms0_10 ⟨3, three_lt⟩) (hs0_10 ⟨3, three_lt⟩) (ms0_11 ⟨3, three_lt⟩) (hs0_11 ⟨3, three_lt⟩) (ms0_12 ⟨3, three_lt⟩) (hs0_12 ⟨3, three_lt⟩) (ms0_13 ⟨3, three_lt⟩) (hs0_13 ⟨3, three_lt⟩) (ms0_14 ⟨3, three_lt⟩) (hs0_14 ⟨3, three_lt⟩) (ms0_15 ⟨3, three_lt⟩) (hs0_15 ⟨3, three_lt⟩) scM0_0 (Memref.isWhole_whole _) (fun hh => h0 ((hcond0_0 ⟨3, three_lt⟩).mp hh)) ((hcond0_1 ⟨3, three_lt⟩).mpr h1) (iblk m c 0 ⟨3, three_lt⟩) (iblk m c 1 ⟨3, three_lt⟩) (iblk m c 2 ⟨3, three_lt⟩) (iblk m c 3 ⟨3, three_lt⟩) (iblk m c 4 ⟨3, three_lt⟩) (iblk m c 5 ⟨3, three_lt⟩) (iblk m c 6 ⟨3, three_lt⟩) (iblk m c 7 ⟨3, three_lt⟩) (iblk m c 8 ⟨3, three_lt⟩) (iblk m c 9 ⟨3, three_lt⟩) (iblk m c 10 ⟨3, three_lt⟩) (iblk m c 11 ⟨3, three_lt⟩) (iblk m c 12 ⟨3, three_lt⟩) (iblk m c 13 ⟨3, three_lt⟩) (iblk m c 14 ⟨3, three_lt⟩) (outsAt0 m c 2 _).2).trans ?_
  show k0_pay2 (stepAt m c ⟨3, three_lt⟩ (outsAt0 m c 2 _).2) = k0_pay2 (stepAt m c ⟨3, three_lt⟩ (chain m c 2 _))
  rw [scratch_eq m c 2]

end Cert.Club.Chain

end
-- ==== Proof.Final.lean ====
/-
  From the accumulator chain to the program's result.  The output window's one [1,1] block is written back
  once, after the last grid point, and is the whole output array; the host line after the pallas_call reshapes
  that [1,1] array to a scalar.  So every run of the program ends with its result at the reshape of
  `outBlock` (the final accumulator times the literal 1/1024) and its arguments unchanged.
  Generic in the float instance.
-/
import proofs.«166566_j66649302499430_1_alg».proof.Proof.Chain
import Idealize.ShloMosaic.Lib.StableHlo.Run

set_option maxRecDepth 16384

noncomputable section

open Idealize.ShloMosaic Idealize.ShloMosaic.TcCoe Idealize.SL.Sem
open Idealize.ShloMosaic.Pipeline (Dat)

namespace Cert.Club.Final

open Cert.KernelIdeal Cert.KernelIdeal.Gen Cert.Club.Pieces Cert.Club.Chain

variable {F : FTy → Type} [FloatOps F]
variable (m : (ℓ : Loc nD τ sig) → Buf (Elt F) ℓ) (ρ : Dev nD → PrngReg)

/-- The last grid point. -/
abbrev tLast : Fin cfg0.N := ⟨3, three_lt⟩

/-- The output window's block index is (0, 0) at the last point, so its offsets into the [1,1] array are zero. -/
theorem off_zero : (fun a => win0_15.index tLast a * main_v26.ty.shape.size a) = fun _ => 0 :=
  funext fun a => by fin_cases a <;> decide +kernel

/-- The one write-back writes `outBlock`: the [1,1] array read through its one block at zero offsets is itself. -/
theorem flushed_eq (c : Dev nD) (t : Fin cfg0.N) (hf : (cfg0.win 15).flush t = true) :
    (dats m 0 c).flushed 15 t = ((cfg0.win 15).blk t).view.read (Elt F) (outBlock m c) := by
  have hN : cfg0.N = 4 := N_0
  have h3 : t.val = 3 := by have := (flush0_15 t).mp hf; have := t.isLt; omega
  obtain rfl : t = tLast := Fin.ext h3
  show (cfg0.win 15).cut (grid0.coords tLast) ((dats m 0 c).after 15 tLast) = _
  rw [after0_15]
  show (cfg0.win 15).cut (grid0.coords tLast) (outsAt0 m c 3 three_lt).1 = _
  rw [out_last]
  exact (Memref.read_access_unit_zero (Elt F) main_v26 off_zero (fun a => by rw [congrFun off_zero a]; simp) (outBlock m c)).symm

/-- So the output array ends holding `outBlock`: the last point's block covers its one element. -/
theorem final_out (c : Dev nD) : (dats m 0 c).arrAt 15 cfg0.N = outBlock m c :=
  (dats m 0 c).arrAt_eq_of_cover 15 (outBlock m c) (flushed_eq m c) fun i =>
    ⟨tLast, (flush0_15 tLast).mpr rfl, by
      show i ∈ ((View.whole main_v26).slice (win0_15.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_15.index tLast 0 * win0_15.size 0 ≤ (i 0 : Nat) ∧ (i 0 : Nat) < win0_15.index tLast 0 * win0_15.size 0 + win0_15.xsize (grid0.coords tLast) 0
        rw [show win0_15.index tLast 0 * win0_15.size 0 = 0 from by decide +kernel, show win0_15.xsize (grid0.coords tLast) 0 = 1 from by decide +kernel]; omega
      | ⟨1, _⟩ =>
        show win0_15.index tLast 1 * win0_15.size 1 ≤ (i 1 : Nat) ∧ (i 1 : Nat) < win0_15.index tLast 1 * win0_15.size 1 + win0_15.xsize (grid0.coords tLast) 1
        rw [show win0_15.index tLast 1 * win0_15.size 1 = 0 from by decide +kernel, show win0_15.xsize (grid0.coords tLast) 1 = 1 from by decide +kernel]; omega⟩

/-- The program's result: the [1,1] output array reshaped to a scalar. -/
def result (c : Dev nD) : Buf (Elt F) ((c.tc : Thread nD τ).loc main_v27) :=
  shapeCast S_ (outBlock m c) shapeCasts_S1x1_S_

/-- The host line after the region computes `result` from the array the region leaves. -/
theorem tail_eq (c : Dev nD) :
    Pipeline.afterTail₀ cfgs (dats m) 0 (V0 m) [hostOps1] c main_v27 = result m c := by
  unfold Pipeline.afterTail₀
  show StableHlo.after hostOps1 _ (Proc.devRef .tc main_v27) = _
  after_results
  have e : Pipeline.withArrays (cfgs 0).spec c (V0 m c) (fun w => (dats m 0 c).arrAt w (cfgs 0).N) (Proc.devRef .tc main_v26) = outBlock m c :=
    (Pipeline.withArrays_arr spec0 launch0.win.arr_inj c _ _ 15).trans (final_out m c)
  rw [e]
  rfl

/-- Every run ends with the result at `result` and the arguments unchanged. -/
theorem run : θ_run defs (onTc (τ := τ) (main (F := F))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v27 (Pipeline.mem_restRefs_of main_v27 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.Club.Final

end
-- ==== Proof.KBody.lean ====
/-
  The kernel body's arithmetic at one grid point, read at the extended reals, is the specification's block-level
  functions: the accumulator's reset is the word `c0`, the final scaling multiplies by the word `cInvN`, and one
  step adds to the accumulator the sum over the block's 256 rows r of  max (∑_d P r d − ∑_d N r d) c0,  where P and N
  are the positive and negative terms built from the two heads over the block (`tileB`).
  Each product of two 256 × 256 matrices is read at (r, c) as the sum over k of left (r, k) · right (k, c); a row
  [1, 256] spread over 256 rows is read at its one row; a lane sum kept as a column is the sum over the lanes; the
  rounding to the narrower format is the identity over the extended reals.
-/
import proofs.«166566_j66649302499430_1_alg».proof.Proof.Gen.KernelIdeal.Skeleton
import proofs.«166566_j66649302499430_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Club.KBody

open Cert.KernelIdeal Cert.KernelIdeal.Gen Idealize.ShloMosaic Idealize.ShloMosaic.ValueIdx

/-! ## A 256 × 256 by 256 × 256 product read at (r, c) -/

theorem lhs_mm_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_mm_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_mm_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_mm_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The product into the zero splat at (r, c) is the sum over k of left (r, k) times right (k, c). -/
theorem matmul_ix2 {φ₁ φ₂ : FTy} (a : FVec Ideal S256x256 φ₁) (b : FVec Ideal S256x256 φ₂) (r c : Fin 256) :
    matmul dot_S256x256_S256x256_S256x256_1_0_0_1_n_n none a b (constant (F := Ideal) S256x256 .f32 0x00000000#32) (ix2 r c)
      = ∑ k : Fin 256, a (ix2 r k) * b (ix2 k c) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r c) ((contrEquiv1 dot_S256x256_S256x256_S256x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S256x256_S256x256_S256x256_1_0_0_1_n_n.rhsIdx (ix2 r c) ((contrEquiv1 dot_S256x256_S256x256_S256x256_1_0_0_1_n_n 256 rfl rfl).symm k) = ix2 k c := funext fun a => Fin.ext (by
    match a with
    | ⟨0, _⟩ => exact (rhs_mm_0 _ _).trans hk
    | ⟨1, _⟩ => exact rhs_mm_1 _ _)
  rw [el, er]

/-! ## Layout operations of the body read at coordinates -/

/-- The lane sum of a [256, 256] block kept as a column: at (r, ·) the sum over d of the block at (r, d). -/
theorem rowSum_apply (src : FVec Ideal S256x256 .f32) (h : S256x256.Reduces [1] S256) (hc : S256.ShapeCasts S256x1)
    (r : Fin 256) (u : Fin 1) :
    shapeCast S256x1 (multiReduction (F := Ideal) .add [1] S256 src 0x00000000#32 h (.inl rfl) rfl) hc (ix2 r u)
      = ∑ d : Fin 256, src (ix2 r d) := by
  refine (shapeCast_apply _ hc (ix2 r u) (ix1 r) ?_).trans ?_
  · rw [Shape.rowMajor_val_two, Shape.rowMajor_val_one]
    show r.val = r.val * 1 + u.val
    omega
  · refine (Ideal.multiReduction_add_single src 0x00000000#32 h (.inl rfl) rfl (ix1 r)).trans ?_
    exact Finset.sum_congr rfl fun d _ => congrArg src (funext fun a => match a with
      | ⟨0, _⟩ => rfl
      | ⟨1, _⟩ => rfl)

/-- The sum of a [256, 1] column kept as [1, 1]: the sum over r of the column at (r, 0). -/
theorem colSum_apply (src : FVec Ideal S256x1 .f32) (h : S256x1.Reduces [0] S1) (hc : S1.ShapeCasts S1x1)
    (p q : Fin 1) :
    shapeCast S1x1 (multiReduction (F := Ideal) .add [0] S1 src 0x00000000#32 h (.inl rfl) rfl) hc (ix2 p q)
      = ∑ r : Fin 256, src (ix2 r 0) := by
  refine (shapeCast_apply _ hc (ix2 p q) (ix1 q) ?_).trans ?_
  · rw [Shape.rowMajor_val_two, Shape.rowMajor_val_one]
    show q.val = p.val * 1 + q.val
    omega
  · refine (Ideal.multiReduction_add_single src 0x00000000#32 h (.inl rfl) rfl (ix1 q)).trans ?_
    exact Finset.sum_congr rfl fun r _ => congrArg src (funext fun a => match a with
      | ⟨0, _⟩ => rfl
      | ⟨1, _⟩ => Fin.ext (by show q.val = 0; omega))

theorem pay1_apply (v23 v48 v58 : FVec Ideal S256x256 .f32) (v64 v66 : FVec Ideal S1x256 .f32) (v67 v74 : FVec Ideal S256x256 .f32)
    (cst : Ideal .f32) (acc : Vec Ideal S1x1 .f32) (j : S1x1.Idx) :
    k0_pay1 (F := Ideal) v23 v48 v58 v64 v66 v67 v74 cst acc j
      = acc j + ∑ r : Fin 256, max ((∑ d : Fin 256, v58 (ix2 r d))
          - ∑ d : Fin 256, (Ideal.ofBits .f32 0x00000000#32 - (v74 (ix2 r d) + ((v66 (ix2 0 d) - (cst * v23 (ix2 r d)) * v64 (ix2 0 d)) + v67 (ix2 r d)))) * v48 (ix2 r d))
          (Ideal.ofBits .f32 0x00000000#32) := by
  obtain ⟨p, q, rfl⟩ : ∃ (p : Fin 1) (q : Fin 1), j = ix2 p q := ⟨j 0, j 1, eq_ix2 j⟩
  unfold k0_pay1
  simp only [shapeCast_self]
  rw [addf_apply, colSum_apply]
  refine congrArg (acc (ix2 p q) + ·) (Finset.sum_congr rfl fun r _ => ?_)
  rw [maximumf_apply, subf_apply, rowSum_apply, rowSum_apply, broadcast_apply]
  refine congrArg (fun t => max (_ - t) _) (Finset.sum_congr rfl fun d _ => ?_)
  rw [mulf_apply, subf_apply, addf_apply, addf_apply, subf_apply, mulf_apply, mulf_apply, broadcastTo_1b_ab_apply, broadcastTo_1b_ab_apply, broadcast_apply, broadcast_apply]
  rfl

/-! ## The hidden layers, the heads and the inverse doubled variance -/

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- The first head's output over the block. -/
theorem head_mu (x0 x3 : Vec Ideal S256x256 .f32) (x4 : Vec Ideal S1x256 .f32) (x5 : Vec Ideal S256x256 .f32)
    (x6 : Vec Ideal S1x256 .f32) (r d : Fin 256) :
    k0_pay5 (F := Ideal) x0 x3 x4 x5 x6 (ix2 r d) = headB x0 x3 x4 x5 x6 r d := by
  unfold k0_pay5 k0_pay4 headB hidB c0
  simp only [shapeCast_self]
  rw [addf_apply, matmul_ix2, broadcastTo_1b_ab_apply]
  refine congrArg (· + x6 (ix2 0 d)) (Finset.sum_congr rfl fun k _ => ?_)
  rw [truncf_apply, truncf_apply, maximumf_apply, addf_apply, matmul_ix2, broadcastTo_1b_ab_apply, broadcast_apply]
  rfl

/-- The second head's hidden layer over the block. -/
theorem hid_lv (x0 x7 : Vec Ideal S256x256 .f32) (x8 : Vec Ideal S1x256 .f32) (r k : Fin 256) :
    k0_pay6 (F := Ideal) x0 x7 x8 (ix2 r k) = hidB x0 x7 x8 r k := by
  unfold k0_pay6 k0_pay4 hidB c0
  simp only [shapeCast_self]
  rw [truncf_apply, maximumf_apply, addf_apply, matmul_ix2, broadcastTo_1b_ab_apply, broadcast_apply]
  rfl

/-- 1 / (2 · exp (tanh ℓ)) with ℓ the second layer of a head over a given hidden layer. -/
theorem g_apply (v34 : FVec Ideal S256x256 .bf16) (x9 : Vec Ideal S256x256 .f32) (x10 : Vec Ideal S1x256 .f32) (r d : Fin 256) :
    k0_pay7 (F := Ideal) v34 x9 x10 (ix2 r d)
      = inv2var ((∑ k : Fin 256, v34 (ix2 r k) * x9 (ix2 k d)) + x10 (ix2 0 d)) := by
  unfold k0_pay7 inv2var c1 c2
  simp only [shapeCast_self]
  rw [divf_apply, broadcast_apply, mulf_apply, broadcast_apply, exp_apply, tanh_apply, addf_apply, matmul_ix2,
    broadcastTo_1b_ab_apply]
  rfl

theorem g_lv (x0 x7 : Vec Ideal S256x256 .f32) (x8 : Vec Ideal S1x256 .f32) (x9 : Vec Ideal S256x256 .f32)
    (x10 : Vec Ideal S1x256 .f32) (r d : Fin 256) :
    k0_pay7 (F := Ideal) (k0_pay6 x0 x7 x8) x9 x10 (ix2 r d) = inv2var (headB x0 x7 x8 x9 x10 r d) := by
  rw [g_apply]
  unfold headB
  refine congrArg inv2var (congrArg (· + x10 (ix2 0 d)) (Finset.sum_congr rfl fun k _ => ?_))
  rw [hid_lv]

/-! ## The two terms of a row -/

theorem pos_eq (x0 x1 x2 x3 : Vec Ideal S256x256 .f32) (x4 : Vec Ideal S1x256 .f32) (x5 : Vec Ideal S256x256 .f32)
    (x6 : Vec Ideal S1x256 .f32) (x7 : Vec Ideal S256x256 .f32) (x8 : Vec Ideal S1x256 .f32) (x9 : Vec Ideal S256x256 .f32)
    (x10 : Vec Ideal S1x256 .f32) (r d : Fin 256) :
    k0_pay8 (F := Ideal) (k0_pay5 x0 x3 x4 x5 x6) (k0_pay6 x0 x7 x8) x9 x10 x1 x2 (ix2 r d)
      = posK (headB x0 x3 x4 x5 x6 r d) (x1 (ix2 r d)) (x2 (ix2 r d)) (inv2var (headB x0 x7 x8 x9 x10 r d)) := by
  unfold k0_pay8 posK c0
  simp only [mulf_apply, subf_apply, addf_apply, broadcast_apply]
  rw [head_mu, g_lv]
  rfl

theorem pay12_apply (v23 : FVec Ideal S256x256 .f32) (x11 x12 : Vec Ideal S1x256 .f32) (r d : Fin 256) :
    k0_pay12 (F := Ideal) v23 x11 x12 (ix2 r d)
      = (x12 (ix2 0 d) - (c2 * v23 (ix2 r d)) * x11 (ix2 0 d)) + v23 (ix2 r d) * v23 (ix2 r d) := by
  unfold k0_pay12 k0_pay11 c2
  simp only [shapeCast_self]
  rw [addf_apply, subf_apply, mulf_apply, mulf_apply, mulf_apply, broadcastTo_1b_ab_apply, broadcastTo_1b_ab_apply, broadcast_apply]
  rfl

theorem neg_eq (x0 x3 : Vec Ideal S256x256 .f32) (x4 : Vec Ideal S1x256 .f32) (x5 : Vec Ideal S256x256 .f32)
    (x6 : Vec Ideal S1x256 .f32) (x7 : Vec Ideal S256x256 .f32) (x8 : Vec Ideal S1x256 .f32) (x9 : Vec Ideal S256x256 .f32)
    (x10 x11 x12 x13 x14 : Vec Ideal S1x256 .f32) (r d : Fin 256) :
    (Ideal.ofBits .f32 0x00000000#32
        - (k0_pay12 (F := Ideal) (k0_pay5 x0 x3 x4 x5 x6) x11 x12 (ix2 r d)
          + ((k0_pay10 (F := Ideal) x14 (ix2 0 d)
              - (Scalar.ofBits (F := Ideal) .f32 0x40000000#32 * k0_pay5 (F := Ideal) x0 x3 x4 x5 x6 (ix2 r d)) * k0_pay9 (F := Ideal) x13 (ix2 0 d))
            + k0_pay11 (F := Ideal) (k0_pay5 x0 x3 x4 x5 x6) (ix2 r d))))
        * k0_pay7 (F := Ideal) (k0_pay6 x0 x7 x8) x9 x10 (ix2 r d)
      = negK (headB x0 x3 x4 x5 x6 r d) (x11 (ix2 0 d)) (x12 (ix2 0 d)) (x13 (ix2 0 d)) (x14 (ix2 0 d))
          (inv2var (headB x0 x7 x8 x9 x10 r d)) := by
  rw [pay12_apply, g_lv]
  unfold k0_pay9 k0_pay10 k0_pay11 negK c0 c2
  simp only [shapeCast_self, mulf_apply]
  rw [head_mu]
  rfl

/-! ## The three payloads -/

theorem reset_eq : (k0_pay3 (F := Ideal)) = fun _ => Cert.Club.c0 := by
  unfold k0_pay3 c0
  exact shapeCast_self _ _

theorem scale_eq (v : Vec Ideal S1x1 .f32) : k0_pay2 (F := Ideal) v = fun j => v j * Cert.Club.cInvN := by
  unfold k0_pay2 cInvN
  rfl

theorem acc_step (x0 x1 x2 x3 : Vec Ideal S256x256 .f32) (x4 : Vec Ideal S1x256 .f32) (x5 : Vec Ideal S256x256 .f32) (x6 : Vec Ideal S1x256 .f32)
    (x7 : Vec Ideal S256x256 .f32) (x8 : Vec Ideal S1x256 .f32) (x9 : Vec Ideal S256x256 .f32) (x10 x11 x12 x13 x14 : Vec Ideal S1x256 .f32) (acc : Vec Ideal S1x1 .f32) :
    k0_pay1 (F := Ideal) (k0_pay5 x0 x3 x4 x5 x6) (k0_pay7 (k0_pay6 x0 x7 x8) x9 x10)
        (k0_pay8 (k0_pay5 x0 x3 x4 x5 x6) (k0_pay6 x0 x7 x8) x9 x10 x1 x2) (k0_pay9 x13) (k0_pay10 x14)
        (k0_pay11 (k0_pay5 x0 x3 x4 x5 x6)) (k0_pay12 (k0_pay5 x0 x3 x4 x5 x6) x11 x12) (Scalar.ofBits .f32 0x40000000#32) acc
      = fun j => acc j + Cert.Club.tileB x0 x1 x2 x3 x4 x5 x6 x7 x8 x9 x10 x11 x12 x13 x14 := by
  funext j
  rw [pay1_apply]
  unfold tileB
  refine congrArg (acc j + ·) (Finset.sum_congr rfl fun r _ => ?_)
  unfold rowB
  exact congrArg₂ (fun a b => max (a - b) c0)
    (Finset.sum_congr rfl fun d _ => pos_eq x0 x1 x2 x3 x4 x5 x6 x7 x8 x9 x10 r d)
    (Finset.sum_congr rfl fun d _ => neg_eq x0 x3 x4 x5 x6 x7 x8 x9 x10 x11 x12 x13 x14 r d)

end Cert.Club.KBody

end
-- ==== Proof.Blocks.lean ====
/-
  The kernel's fifteen input blocks at a grid point, read off the arrays the region finds, and the specification's
  block-level tile sum over them.

  At grid point t the blocks of x, y, z are rows 256 t … 256 t + 255 of the arguments; the four weight blocks are the
  weight matrices transposed; the four bias blocks are the bias vectors as rows [1, 256]; the four moment blocks are the
  column means (0 + ∑_j a_jd) / 1024 of y, y·y, z, z·z as rows [1, 256]. Each block entry is read at explicit
  coordinates (a block's array coordinate is block index × block size + the coordinate inside the block), the host-made
  arrays through the transpose, the reshape, the broadcasts, the division and the column sum read at an index. With the
  fifteen readings the block-level hidden layer, head and row are the array-level ones at row 256 t + r, and the tile
  sums agree term by term.
-/
import proofs.«166566_j66649302499430_1_alg».proof.Proof.Gen.KernelIdeal.Frame.Runs
import proofs.«166566_j66649302499430_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.Club.Blocks

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ)

/-! ## Host operations read at an index (over variables of the literal types) -/

/-- The column sum from the literal zero, read at column `d`. -/
theorem colsum_apply (a : S1024x256.Idx → EReal) (d : Fin 256) :
    Host.reduceAdd (F := Ideal) (φ := .f32) a (constant S_ .f32 0x00000000#32) reducesTo_S1024x256_S256_d0 h_S_ (ix1 d)
      = Ideal.ofBits .f32 0x00000000#32 + ∑ j : Fin 1024, a (ix2 j d) := by
  simp only [Host.reduceAdd, Ideal.hostReduceAdd_def]
  rw [Ideal.hostReduceAdd_single reducesTo_S1024x256_S256_d0 (by decide)]
  refine congrArg (_ + ·) (Finset.sum_congr rfl fun k _ => ?_)
  exact congrArg a (funext fun b => Fin.ext (by match b with | ⟨0, _⟩ => rfl | ⟨1, _⟩ => rfl))

/-- A vector broadcast to a row and divided by the broadcast literal 1024, read at a row index whose column is `d`. -/
theorem divBcast_apply (x : S256.Idx → EReal) (j : S1x256.Idx) (d : Fin 256) (hj : (j 1).val = d.val) :
    Host.divf (F := Ideal) (φ := .f32) (broadcastInDim S1x256 ![1] bcast_S256_S1x256_1 x)
        (broadcastInDim S1x256 ![] bcast_S_S1x256 (constant S_ .f32 0x44800000#32)) j
      = Ideal.div (x (ix1 d)) (Ideal.ofBits .f32 0x44800000#32) := by
  show Ideal.div (broadcastInDim S1x256 ![1] bcast_S256_S1x256_1 x j)
    (broadcastInDim S1x256 ![] bcast_S_S1x256 (constant (F := Ideal) S_ .f32 0x44800000#32) j) = _
  rw [broadcastInDim_apply _ bcast_S256_S1x256_1 x j (ix1 d) (fun a => match a with
      | ⟨0, _⟩ => by show d.val = if (256 : Nat) = 1 then 0 else (j 1).val; rw [if_neg (by decide), hj]),
    broadcastInDim_apply _ bcast_S_S1x256 (constant (F := Ideal) S_ .f32 0x44800000#32) j ix0 (fun a => a.elim0)]
  rfl

/-- The transpose of a square matrix read at (q, k) is the matrix at (k, q). -/
theorem transp_apply (x : S256x256.Idx → EReal) (j : S256x256.Idx) (q k : Fin 256) (h0 : (j 0).val = q.val) (h1 : (j 1).val = k.val) :
    transpose S256x256 [1, 0] x transposes_S256x256_S256x256_1_0 j = x (ix2 k q) :=
  transpose_apply [1, 0] x transposes_S256x256_S256x256_1_0 j (ix2 k q) (fun b => match b with
    | ⟨0, _⟩ => h0.symm
    | ⟨1, _⟩ => h1.symm)

/-- A vector reshaped to a row, read at (0, k), is the vector at k. -/
theorem rowOf_apply (x : S256.Idx → EReal) (j : S1x256.Idx) (k : Fin 256) (h0 : (j 0).val = 0) (h1 : (j 1).val = k.val) :
    shapeCast S1x256 x shapeCasts_S256_S1x256 j = x (ix1 k) := by
  refine shapeCast_apply x shapeCasts_S256_S1x256 j (ix1 k) ?_
  rw [Shape.rowMajor_val_one, Shape.rowMajor_val_two]
  show k.val = (j 0).val * 256 + (j 1).val
  rw [h0, h1]; omega

/-! ## The arrays the host operations leave for the region -/

theorem V_v0 (c : Dev nD) : (V m c main_v0 : S256x256.Idx → EReal)
    = transpose S256x256 [1, 0] (m ((c.tc : Thread nD τ).loc main_arg3)) transposes_S256x256_S256x256_1_0 := by
  show StableHlo.after hostOps0 (fun b => m (c, b)) (Proc.devRef .tc main_v0) = _
  after_results <;> rfl
theorem V_v1 (c : Dev nD) : (V m c main_v1 : S256x256.Idx → EReal)
    = transpose S256x256 [1, 0] (m ((c.tc : Thread nD τ).loc main_arg5)) transposes_S256x256_S256x256_1_0 := by
  show StableHlo.after hostOps0 (fun b => m (c, b)) (Proc.devRef .tc main_v1) = _
  after_results <;> rfl
theorem V_v2 (c : Dev nD) : (V m c main_v2 : S256x256.Idx → EReal)
    = transpose S256x256 [1, 0] (m ((c.tc : Thread nD τ).loc main_arg7)) transposes_S256x256_S256x256_1_0 := by
  show StableHlo.after hostOps0 (fun b => m (c, b)) (Proc.devRef .tc main_v2) = _
  after_results <;> rfl
theorem V_v3 (c : Dev nD) : (V m c main_v3 : S256x256.Idx → EReal)
    = transpose S256x256 [1, 0] (m ((c.tc : Thread nD τ).loc main_arg9)) transposes_S256x256_S256x256_1_0 := by
  show StableHlo.after hostOps0 (fun b => m (c, b)) (Proc.devRef .tc main_v3) = _
  after_results <;> rfl

theorem V_v4 (c : Dev nD) : (V m c main_v4 : S1x256.Idx → EReal)
    = shapeCast S1x256 (m ((c.tc : Thread nD τ).loc main_arg4)) shapeCasts_S256_S1x256 := by
  show StableHlo.after hostOps0 (fun b => m (c, b)) (Proc.devRef .tc main_v4) = _
  after_results <;> rfl
theorem V_v5 (c : Dev nD) : (V m c main_v5 : S1x256.Idx → EReal)
    = shapeCast S1x256 (m ((c.tc : Thread nD τ).loc main_arg6)) shapeCasts_S256_S1x256 := by
  show StableHlo.after hostOps0 (fun b => m (c, b)) (Proc.devRef .tc main_v5) = _
  after_results <;> rfl
theorem V_v6 (c : Dev nD) : (V m c main_v6 : S1x256.Idx → EReal)
    = shapeCast S1x256 (m ((c.tc : Thread nD τ).loc main_arg8)) shapeCasts_S256_S1x256 := by
  show StableHlo.after hostOps0 (fun b => m (c, b)) (Proc.devRef .tc main_v6) = _
  after_results <;> rfl
theorem V_v7 (c : Dev nD) : (V m c main_v7 : S1x256.Idx → EReal)
    = shapeCast S1x256 (m ((c.tc : Thread nD τ).loc main_arg10)) shapeCasts_S256_S1x256 := by
  show StableHlo.after hostOps0 (fun b => m (c, b)) (Proc.devRef .tc main_v7) = _
  after_results <;> rfl

/-- The column sum of `a` from 0, broadcast to a row, over the broadcast 1024. -/
abbrev meanRow (a : S1024x256.Idx → EReal) : S1x256.Idx → EReal :=
  Host.divf (F := Ideal) (φ := .f32) (broadcastInDim S1x256 ![1] bcast_S256_S1x256_1
      (Host.reduceAdd (F := Ideal) (φ := .f32) a (constant S_ .f32 0x00000000#32) reducesTo_S1024x256_S256_d0 h_S_))
    (broadcastInDim S1x256 ![] bcast_S_S1x256 (constant S_ .f32 0x44800000#32))

theorem V_v11 (c : Dev nD) : (V m c main_v11 : S1x256.Idx → EReal) = meanRow (m ((c.tc : Thread nD τ).loc main_arg1)) := by
  show StableHlo.after hostOps0 (fun b => m (c, b)) (Proc.devRef .tc main_v11) = _
  after_results <;> rfl
theorem V_v16 (c : Dev nD) : (V m c main_v16 : S1x256.Idx → EReal)
    = meanRow (mulf (F := Ideal) (φ := .f32) (m ((c.tc : Thread nD τ).loc main_arg1)) (m ((c.tc : Thread nD τ).loc main_arg1))) := by
  show StableHlo.after hostOps0 (fun b => m (c, b)) (Proc.devRef .tc main_v16) = _
  after_results <;> rfl
theorem V_v20 (c : Dev nD) : (V m c main_v20 : S1x256.Idx → EReal) = meanRow (m ((c.tc : Thread nD τ).loc main_arg2)) := by
  show StableHlo.after hostOps0 (fun b => m (c, b)) (Proc.devRef .tc main_v20) = _
  after_results <;> rfl
theorem V_v25 (c : Dev nD) : (V m c main_v25 : S1x256.Idx → EReal)
    = meanRow (mulf (F := Ideal) (φ := .f32) (m ((c.tc : Thread nD τ).loc main_arg2)) (m ((c.tc : Thread nD τ).loc main_arg2))) := by
  show StableHlo.after hostOps0 (fun b => m (c, b)) (Proc.devRef .tc main_v25) = _
  after_results <;> rfl

/-- The mean row of `a` at column `d` is the column mean. -/
theorem meanRow_apply (a : Cert.Club.Mat) (j : S1x256.Idx) (d : Fin 256) (hj : (j 1).val = d.val) :
    meanRow a j = Cert.Club.colMean a d := by
  unfold meanRow Cert.Club.colMean Cert.Club.c0 Cert.Club.cN
  rw [divBcast_apply _ j d hj, colsum_apply]
/-- The mean row of the squares of `a` at column `d` is the column mean of squares. -/
theorem meanRowSq_apply (a : Cert.Club.Mat) (j : S1x256.Idx) (d : Fin 256) (hj : (j 1).val = d.val) :
    meanRow (mulf (F := Ideal) (φ := .f32) a a) j = Cert.Club.colMeanSq a d := by
  unfold meanRow Cert.Club.colMeanSq Cert.Club.c0 Cert.Club.cN
  rw [divBcast_apply _ j d hj, colsum_apply]
  rfl

/-! ## The fifteen blocks, read at explicit coordinates -/

/-- Every window but the three tiled ones sits at block (0, 0) at every point; the tiled ones at (t, 0). -/
theorem idx_tiled (t : Fin cfg0.N) :
    (win0_0.index t 0 = t.val ∧ win0_0.index t 1 = 0) ∧ (win0_1.index t 0 = t.val ∧ win0_1.index t 1 = 0)
      ∧ (win0_2.index t 0 = t.val ∧ win0_2.index t 1 = 0) := by
  rcases fin_N0 t with rfl | rfl | rfl | rfl <;> decide
theorem idx_whole (t : Fin cfg0.N) :
    (win0_3.index t 0 = 0 ∧ win0_3.index t 1 = 0) ∧ (win0_4.index t 0 = 0 ∧ win0_4.index t 1 = 0)
      ∧ (win0_5.index t 0 = 0 ∧ win0_5.index t 1 = 0) ∧ (win0_6.index t 0 = 0 ∧ win0_6.index t 1 = 0)
      ∧ (win0_7.index t 0 = 0 ∧ win0_7.index t 1 = 0) ∧ (win0_8.index t 0 = 0 ∧ win0_8.index t 1 = 0)
      ∧ (win0_9.index t 0 = 0 ∧ win0_9.index t 1 = 0) ∧ (win0_10.index t 0 = 0 ∧ win0_10.index t 1 = 0)
      ∧ (win0_11.index t 0 = 0 ∧ win0_11.index t 1 = 0) ∧ (win0_12.index t 0 = 0 ∧ win0_12.index t 1 = 0)
      ∧ (win0_13.index t 0 = 0 ∧ win0_13.index t 1 = 0) ∧ (win0_14.index t 0 = 0 ∧ win0_14.index t 1 = 0) := by
  rcases fin_N0 t with rfl | rfl | rfl | rfl <;> decide

theorem blk0 (c : Dev nD) (t : Fin cfg0.N) (r q : Fin 256) :
    iblk m c 0 t (ix2 r q) = (m ((c.tc : Thread nD τ).loc main_arg0)) (ix2 (Cert.Club.tileRow (Fin.cast N_0 t) r) q) := by
  have hi := (idx_tiled t).1
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [hi.1]; omega
  | ⟨1, _⟩ => show win0_0.index t 1 * 256 + 1 * q.val = q.val; rw [hi.2]; omega

theorem blk1 (c : Dev nD) (t : Fin cfg0.N) (r q : Fin 256) :
    iblk m c 1 t (ix2 r q) = (m ((c.tc : Thread nD τ).loc main_arg1)) (ix2 (Cert.Club.tileRow (Fin.cast N_0 t) r) q) := by
  have hi := (idx_tiled t).2.1
  unfold iblk
  rw [View.read_apply]
  show V m c main_arg1 _ = _
  rw [V_main_arg1]
  congr 1
  funext a
  apply Fin.ext
  match a with
  | ⟨0, _⟩ => show win0_1.index t 0 * 256 + 1 * r.val = 256 * t.val + r.val; rw [hi.1]; omega
  | ⟨1, _⟩ => show win0_1.index t 1 * 256 + 1 * q.val = q.val; rw [hi.2]; omega

theorem blk2 (c : Dev nD) (t : Fin cfg0.N) (r q : Fin 256) :
    iblk m c 2 t (ix2 r q) = (m ((c.tc : Thread nD τ).loc main_arg2)) (ix2 (Cert.Club.tileRow (Fin.cast N_0 t) r) q) := by
  have hi := (idx_tiled t).2.2
  unfold iblk
  rw [View.read_apply]
  show V m c main_arg2 _ = _
  rw [V_main_arg2]
  congr 1
  funext a
  apply Fin.ext
  match a with
  | ⟨0, _⟩ => show win0_2.index t 0 * 256 + 1 * r.val = 256 * t.val + r.val; rw [hi.1]; omega
  | ⟨1, _⟩ => show win0_2.index t 1 * 256 + 1 * q.val = q.val; rw [hi.2]; omega

theorem blk3 (c : Dev nD) (t : Fin cfg0.N) (q k : Fin 256) :
    iblk m c 3 t (ix2 q k) = (m ((c.tc : Thread nD τ).loc main_arg3)) (ix2 k q) := by
  have hi := (idx_whole t).1
  unfold iblk
  rw [View.read_apply]
  show V m c main_v0 _ = _
  rw [V_v0]
  refine transp_apply _ _ q k ?_ ?_
  · show win0_3.index t 0 * 256 + 1 * q.val = q.val; rw [hi.1]; omega
  · show win0_3.index t 1 * 256 + 1 * k.val = k.val; rw [hi.2]; omega

theorem blk5 (c : Dev nD) (t : Fin cfg0.N) (q k : Fin 256) :
    iblk m c 5 t (ix2 q k) = (m ((c.tc : Thread nD τ).loc main_arg5)) (ix2 k q) := by
  have hi := (idx_whole t).2.2.1
  unfold iblk
  rw [View.read_apply]
  show V m c main_v1 _ = _
  rw [V_v1]
  refine transp_apply _ _ q k ?_ ?_
  · show win0_5.index t 0 * 256 + 1 * q.val = q.val; rw [hi.1]; omega
  · show win0_5.index t 1 * 256 + 1 * k.val = k.val; rw [hi.2]; omega

theorem blk7 (c : Dev nD) (t : Fin cfg0.N) (q k : Fin 256) :
    iblk m c 7 t (ix2 q k) = (m ((c.tc : Thread nD τ).loc main_arg7)) (ix2 k q) := by
  have hi := (idx_whole t).2.2.2.2.1
  unfold iblk
  rw [View.read_apply]
  show V m c main_v2 _ = _
  rw [V_v2]
  refine transp_apply _ _ q k ?_ ?_
  · show win0_7.index t 0 * 256 + 1 * q.val = q.val; rw [hi.1]; omega
  · show win0_7.index t 1 * 256 + 1 * k.val = k.val; rw [hi.2]; omega

theorem blk9 (c : Dev nD) (t : Fin cfg0.N) (q k : Fin 256) :
    iblk m c 9 t (ix2 q k) = (m ((c.tc : Thread nD τ).loc main_arg9)) (ix2 k q) := by
  have hi := (idx_whole t).2.2.2.2.2.2.1
  unfold iblk
  rw [View.read_apply]
  show V m c main_v3 _ = _
  rw [V_v3]
  refine transp_apply _ _ q k ?_ ?_
  · show win0_9.index t 0 * 256 + 1 * q.val = q.val; rw [hi.1]; omega
  · show win0_9.index t 1 * 256 + 1 * k.val = k.val; rw [hi.2]; omega

theorem blk4 (c : Dev nD) (t : Fin cfg0.N) (k : Fin 256) :
    iblk m c 4 t (ix2 0 k) = (m ((c.tc : Thread nD τ).loc main_arg4)) (ix1 k) := by
  have hi := (idx_whole t).2.1
  unfold iblk
  rw [View.read_apply]
  show V m c main_v4 _ = _
  rw [V_v4]
  refine rowOf_apply _ _ k ?_ ?_
  · show win0_4.index t 0 * 1 + 1 * 0 = 0; rw [hi.1]
  · show win0_4.index t 1 * 256 + 1 * k.val = k.val; rw [hi.2]; omega

theorem blk6 (c : Dev nD) (t : Fin cfg0.N) (k : Fin 256) :
    iblk m c 6 t (ix2 0 k) = (m ((c.tc : Thread nD τ).loc main_arg6)) (ix1 k) := by
  have hi := (idx_whole t).2.2.2.1
  unfold iblk
  rw [View.read_apply]
  show V m c main_v5 _ = _
  rw [V_v5]
  refine rowOf_apply _ _ k ?_ ?_
  · show win0_6.index t 0 * 1 + 1 * 0 = 0; rw [hi.1]
  · show win0_6.index t 1 * 256 + 1 * k.val = k.val; rw [hi.2]; omega

theorem blk8 (c : Dev nD) (t : Fin cfg0.N) (k : Fin 256) :
    iblk m c 8 t (ix2 0 k) = (m ((c.tc : Thread nD τ).loc main_arg8)) (ix1 k) := by
  have hi := (idx_whole t).2.2.2.2.2.1
  unfold iblk
  rw [View.read_apply]
  show V m c main_v6 _ = _
  rw [V_v6]
  refine rowOf_apply _ _ k ?_ ?_
  · show win0_8.index t 0 * 1 + 1 * 0 = 0; rw [hi.1]
  · show win0_8.index t 1 * 256 + 1 * k.val = k.val; rw [hi.2]; omega

theorem blk10 (c : Dev nD) (t : Fin cfg0.N) (k : Fin 256) :
    iblk m c 10 t (ix2 0 k) = (m ((c.tc : Thread nD τ).loc main_arg10)) (ix1 k) := by
  have hi := (idx_whole t).2.2.2.2.2.2.2.1
  unfold iblk
  rw [View.read_apply]
  show V m c main_v7 _ = _
  rw [V_v7]
  refine rowOf_apply _ _ k ?_ ?_
  · show win0_10.index t 0 * 1 + 1 * 0 = 0; rw [hi.1]
  · show win0_10.index t 1 * 256 + 1 * k.val = k.val; rw [hi.2]; omega

theorem blk11 (c : Dev nD) (t : Fin cfg0.N) (d : Fin 256) :
    iblk m c 11 t (ix2 0 d) = Cert.Club.colMean (m ((c.tc : Thread nD τ).loc main_arg1)) d := by
  have hi := (idx_whole t).2.2.2.2.2.2.2.2.1
  unfold iblk
  rw [View.read_apply]
  show V m c main_v11 _ = _
  rw [V_v11]
  refine meanRow_apply _ _ d ?_
  show win0_11.index t 1 * 256 + 1 * d.val = d.val; rw [hi.2]; omega

theorem blk12 (c : Dev nD) (t : Fin cfg0.N) (d : Fin 256) :
    iblk m c 12 t (ix2 0 d) = Cert.Club.colMeanSq (m ((c.tc : Thread nD τ).loc main_arg1)) d := by
  have hi := (idx_whole t).2.2.2.2.2.2.2.2.2.1
  unfold iblk
  rw [View.read_apply]
  show V m c main_v16 _ = _
  rw [V_v16]
  refine meanRowSq_apply _ _ d ?_
  show win0_12.index t 1 * 256 + 1 * d.val = d.val; rw [hi.2]; omega

theorem blk13 (c : Dev nD) (t : Fin cfg0.N) (d : Fin 256) :
    iblk m c 13 t (ix2 0 d) = Cert.Club.colMean (m ((c.tc : Thread nD τ).loc main_arg2)) d := by
  have hi := (idx_whole t).2.2.2.2.2.2.2.2.2.2.1
  unfold iblk
  rw [View.read_apply]
  show V m c main_v20 _ = _
  rw [V_v20]
  refine meanRow_apply _ _ d ?_
  show win0_13.index t 1 * 256 + 1 * d.val = d.val; rw [hi.2]; omega

theorem blk14 (c : Dev nD) (t : Fin cfg0.N) (d : Fin 256) :
    iblk m c 14 t (ix2 0 d) = Cert.Club.colMeanSq (m ((c.tc : Thread nD τ).loc main_arg2)) d := by
  have hi := (idx_whole t).2.2.2.2.2.2.2.2.2.2.2
  unfold iblk
  rw [View.read_apply]
  show V m c main_v25 _ = _
  rw [V_v25]
  refine meanRowSq_apply _ _ d ?_
  show win0_14.index t 1 * 256 + 1 * d.val = d.val; rw [hi.2]; omega

/-! ## The assembly -/

section Assembly

open Cert.Club

/-- A block's hidden layer is the array's at the block's row. -/
theorem hidB_eq (xb wt : Sq) (br : Rw) (x : Mat) (w : Sq) (b : Vc) (i : Fin 1024) (r : Fin 256)
    (hx : ∀ q, xb (ix2 r q) = x (ix2 i q)) (hw : ∀ q k, wt (ix2 q k) = w (ix2 k q)) (hb : ∀ k, br (ix2 0 k) = b (ix1 k))
    (k : Fin 256) : hidB xb wt br r k = hid x w b i k := by
  unfold hidB hid
  rw [hb k]
  refine congrArg (fun s => max (s + b (ix1 k)) c0) (Finset.sum_congr rfl fun q _ => ?_)
  rw [hx q, hw q k]

/-- A block's head is the array's at the block's row. -/
theorem headB_eq (xb w1t : Sq) (b1r : Rw) (w2t : Sq) (b2r : Rw) (x : Mat) (w1 : Sq) (b1 : Vc) (w2 : Sq) (b2 : Vc)
    (i : Fin 1024) (r : Fin 256)
    (hx : ∀ q, xb (ix2 r q) = x (ix2 i q)) (hw1 : ∀ q k, w1t (ix2 q k) = w1 (ix2 k q)) (hb1 : ∀ k, b1r (ix2 0 k) = b1 (ix1 k))
    (hw2 : ∀ q k, w2t (ix2 q k) = w2 (ix2 k q)) (hb2 : ∀ k, b2r (ix2 0 k) = b2 (ix1 k))
    (d : Fin 256) : headB xb w1t b1r w2t b2r r d = head x w1 b1 w2 b2 i d := by
  unfold headB head
  rw [hb2 d]
  refine congrArg (· + b2 (ix1 d)) (Finset.sum_congr rfl fun k _ => ?_)
  rw [hidB_eq xb w1t b1r x w1 b1 i r hx hw1 hb1 k, hw2 k d]

/-- A block's row is the array's row. -/
theorem rowB_eq (xb yb zb w1mt : Sq) (b1mr : Rw) (w2mt : Sq) (b2mr : Rw) (w1lt : Sq) (b1lr : Rw) (w2lt : Sq) (b2lr : Rw)
    (ey ey2 ez ez2 : Rw)
    (x y z : Mat) (w1m : Sq) (b1m : Vc) (w2m : Sq) (b2m : Vc) (w1l : Sq) (b1l : Vc) (w2l : Sq) (b2l : Vc)
    (i : Fin 1024) (r : Fin 256)
    (hx : ∀ q, xb (ix2 r q) = x (ix2 i q)) (hy : ∀ q, yb (ix2 r q) = y (ix2 i q)) (hz : ∀ q, zb (ix2 r q) = z (ix2 i q))
    (hw1m : ∀ q k, w1mt (ix2 q k) = w1m (ix2 k q)) (hb1m : ∀ k, b1mr (ix2 0 k) = b1m (ix1 k))
    (hw2m : ∀ q k, w2mt (ix2 q k) = w2m (ix2 k q)) (hb2m : ∀ k, b2mr (ix2 0 k) = b2m (ix1 k))
    (hw1l : ∀ q k, w1lt (ix2 q k) = w1l (ix2 k q)) (hb1l : ∀ k, b1lr (ix2 0 k) = b1l (ix1 k))
    (hw2l : ∀ q k, w2lt (ix2 q k) = w2l (ix2 k q)) (hb2l : ∀ k, b2lr (ix2 0 k) = b2l (ix1 k))
    (hey : ∀ d, ey (ix2 0 d) = colMean y d) (hey2 : ∀ d, ey2 (ix2 0 d) = colMeanSq y d)
    (hez : ∀ d, ez (ix2 0 d) = colMean z d) (hez2 : ∀ d, ez2 (ix2 0 d) = colMeanSq z d) :
    rowB xb yb zb w1mt b1mr w2mt b2mr w1lt b1lr w2lt b2lr ey ey2 ez ez2 r
      = rowK x y z w1m b1m w2m b2m w1l b1l w2l b2l i := by
  unfold rowB rowK
  have hm := headB_eq xb w1mt b1mr w2mt b2mr x w1m b1m w2m b2m i r hx hw1m hb1m hw2m hb2m
  have hl := headB_eq xb w1lt b1lr w2lt b2lr x w1l b1l w2l b2l i r hx hw1l hb1l hw2l hb2l
  have e1 : (∑ d : Fin 256, posK (headB xb w1mt b1mr w2mt b2mr r d) (yb (ix2 r d)) (zb (ix2 r d)) (inv2var (headB xb w1lt b1lr w2lt b2lr r d)))
      = ∑ d : Fin 256, posK (head x w1m b1m w2m b2m i d) (y (ix2 i d)) (z (ix2 i d)) (inv2var (head x w1l b1l w2l b2l i d)) :=
    Finset.sum_congr rfl fun d _ => by rw [hm d, hl d, hy d, hz d]
  have e2 : (∑ d : Fin 256, negK (headB xb w1mt b1mr w2mt b2mr r d) (ey (ix2 0 d)) (ey2 (ix2 0 d)) (ez (ix2 0 d)) (ez2 (ix2 0 d))
          (inv2var (headB xb w1lt b1lr w2lt b2lr r d)))
      = ∑ d : Fin 256, negK (head x w1m b1m w2m b2m i d) (colMean y d) (colMeanSq y d) (colMean z d) (colMeanSq z d)
          (inv2var (head x w1l b1l w2l b2l i d)) :=
    Finset.sum_congr rfl fun d _ => by rw [hm d, hl d, hey d, hey2 d, hez d, hez2 d]
  rw [e1, e2]

end Assembly

/-- The specification's tile sum over the fifteen blocks at point `t` is its tile sum over the arguments at tile `t`. -/
theorem tileB_blocks (c : Dev nD) (t : Fin cfg0.N) :
    Cert.Club.tileB (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t)
      = Cert.Club.tileK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (Fin.cast N_0 t) := by
  unfold Cert.Club.tileB Cert.Club.tileK
  refine Finset.sum_congr rfl fun r _ => ?_
  exact rowB_eq _ _ _ _ _ _ _ _ _ _ _ _ _ _ _ _ _ _ _ _ _ _ _ _ _ _ _ r
    (fun q => blk0 m c t r q) (fun q => blk1 m c t r q) (fun q => blk2 m c t r q)
    (fun q k => blk3 m c t q k) (fun k => blk4 m c t k) (fun q k => blk5 m c t q k) (fun k => blk6 m c t k)
    (fun q k => blk7 m c t q k) (fun k => blk8 m c t k) (fun q k => blk9 m c t q k) (fun k => blk10 m c t k)
    (fun d => blk11 m c t d) (fun d => blk12 m c t d) (fun d => blk13 m c t d) (fun d => blk14 m c t d)

end Cert.Club.Blocks

end
-- ==== Proof.KResult.lean ====
/-
  The kernel program's result at the ideal instance, as the specification's `resK` of the argument arrays:
  each grid point adds its tile's sum (over the point's blocks, which read the arguments: the x, y, z row tiles,
  the transposed weights, the bias rows, the column moments) to the accumulator, the four tile sums accumulate in
  order from the literal 0, and the output is the total times the literal 1/1024, reshaped to a scalar.
-/
import proofs.«166566_j66649302499430_1_alg».proof.Proof.Final
import proofs.«166566_j66649302499430_1_alg».proof.Proof.KBody
import proofs.«166566_j66649302499430_1_alg».proof.Proof.Blocks

set_option maxRecDepth 16384

noncomputable section

open Idealize.ShloMosaic Idealize.ShloMosaic.TcCoe Idealize.SL.Sem

namespace Cert.Club.KResult

open Cert.KernelIdeal Cert.KernelIdeal.Gen Cert.Club Cert.Club.Pieces Cert.Club.Chain Cert.Club.Final

variable (m : (ℓ : Loc nD τ sig) → Buf (Elt Ideal) ℓ)

/-- Tile t's sum, of the program's arguments. -/
def tileAt (c : Dev nD) (t : Fin 4) : EReal := tileK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) t

/-- One grid point adds its tile's sum to the accumulator. -/
theorem stepAt_eq (c : Dev nD) (t : Fin cfg0.N) (acc : Vec Ideal S1x1 .f32) :
    stepAt m c t acc = fun j => acc j + tileAt m c (Fin.cast N_0 t) := by
  unfold stepAt step tileAt
  rw [KBody.acc_step, Blocks.tileB_blocks]

/-- The accumulator after the last point: the four tile sums added in order to the literal 0. -/
theorem chain_last (c : Dev nD) :
    chain m c 3 three_lt = fun _ => (((c0 + tileAt m c 0) + tileAt m c 1) + tileAt m c 2) + tileAt m c 3 := by
  simp only [chain]
  rw [stepAt_eq, stepAt_eq, stepAt_eq, stepAt_eq, KBody.reset_eq]
  rfl

/-- The program's result is `resK` of its arguments. -/
theorem result_eq (c : Dev nD) : result m c = fun _ => resK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold result outBlock
  rw [chain_last, KBody.scale_eq]
  rfl

end Cert.Club.KResult

end
-- ==== Proof.lean ====
/-
  The certificate of the CLUB mutual-information bound kernel against its jnp reference, over the extended reals.

  Both programs compute, from samples x, y, z [1024, 256] and two two-layer heads (μ and a log-variance ℓ, with
  g = 1 / (2 · exp (tanh ℓ))), the mean over the samples i of  max (∑_d P_id − ∑_d N_id) 0,  where
  P_id = −((μ_id − y_id)² + (μ_id − z_id)²) · g_id  and  N_id = −(mean_j [(y_jd − μ_id)² + (z_jd − μ_id)²]) · g_id.
  The reference materialises the [1024, 1024, 256] differences and averages over j; the kernel expands the square,
  mean_j (y_jd − μ)² = E[y²]_d − 2 μ E[y]_d + μ², with the column moments computed once on the host, runs over four
  row tiles of 256 accumulating the tile sums in a [1,1] scratch, and multiplies by 1/1024 where the reference
  divides by 1024.  The expansion needs every entry of x, y, z and of the μ head's weights to be a real number
  (on the extended reals distributivity fails at the infinities): that is what the precondition gives.
  Modules: Spec (the mathematics of both sides), SpecAlgebra (the two are equal on finite inputs), Finite (the
  precondition makes every input entry real), RefValue (the reference's result is the specification's), KBody (the
  kernel body's arithmetic over one tile's blocks), Blocks (the blocks read the arguments), Pieces / Chain / Final
  (the accumulator over the grid, the write-back and the host reshape), KResult (the kernel's result is the
  specification's).  The frames of the two kernel programs are the generated ones; the reference's frame is its
  generated run with the result dropped; nothing was rewritten by the idealization, so `preserves` is trivial.
-/
import proofs.«166566_j66649302499430_1_alg».proof.Defs
import proofs.«166566_j66649302499430_1_alg».proof.Proof.Gen.Kernel
import proofs.«166566_j66649302499430_1_alg».proof.Proof.Gen.Kernel.Skeleton
import proofs.«166566_j66649302499430_1_alg».proof.Proof.Gen.Kernel.Launch
import proofs.«166566_j66649302499430_1_alg».proof.Proof.Gen.Kernel.Points
import proofs.«166566_j66649302499430_1_alg».proof.Proof.Gen.Kernel.Frame
import proofs.«166566_j66649302499430_1_alg».proof.Proof.Gen.KernelIdeal
import proofs.«166566_j66649302499430_1_alg».proof.Proof.Gen.KernelIdeal.Skeleton
import proofs.«166566_j66649302499430_1_alg».proof.Proof.Gen.KernelIdeal.Launch
import proofs.«166566_j66649302499430_1_alg».proof.Proof.Gen.KernelIdeal.Points
import proofs.«166566_j66649302499430_1_alg».proof.Proof.Gen.KernelIdeal.Frame
import proofs.«166566_j66649302499430_1_alg».proof.Proof.Gen.ReferenceIdeal
import proofs.«166566_j66649302499430_1_alg».proof.Proof.Gen.ReferenceIdeal.Run
import proofs.«166566_j66649302499430_1_alg».proof.Proof.Gen.ReferenceIdeal.Read
import proofs.«166566_j66649302499430_1_alg».proof.Proof.Gen.Pre_finite_inputs
import proofs.«166566_j66649302499430_1_alg».proof.Proof.SpecAlgebra
import proofs.«166566_j66649302499430_1_alg».proof.Proof.Finite
import proofs.«166566_j66649302499430_1_alg».proof.Proof.RefValue
import proofs.«166566_j66649302499430_1_alg».proof.Proof.KResult
import Idealize.ShloMosaic.Adequacy
import Idealize.ShloMosaic.Init

noncomputable section

namespace Cert.Proof

open Idealize.ShloMosaic Idealize.SL.Sem

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories that agree on the arguments, the kernel program ends at `resK` of the
    arguments and the reference at `resR` of them; the precondition makes the entries real, and then the two agree. -/
theorem algebraic : Cert.algebraic_KernelIdeal_ReferenceIdeal := by
  intro m ρ m' ρ' hpre hagree
  refine ⟨fun c => Cert.Club.Final.result m c, Cert.Club.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  obtain ⟨r0, r1, r2, r3, r4, r5, r6, -, -, -, -⟩ := Cert.Club.Finite.real_of_pre _ _ _ _ _ _ _ _ _ _ _ (hpre c)
  rw [Cert.ReferenceIdeal.Read.val_main_v57_eq, a0, a1, a2, a3, a4, a5, a6, a7, a8, a9, a10, Cert.Club.RefValue.ref_val]
  show _ = Cert.Club.Final.result m c
  rw [Cert.Club.KResult.result_eq]
  funext _
  exact (Cert.Club.resK_eq_resR _ _ _ _ _ _ _ _ _ _ _ r0 r1 r2 r3 r4 r5 r6).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
